-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S1000000 : Shape := ⟨1, ![1000000]⟩
abbrev S1000000x5 : Shape := ⟨2, ![1000000, 5]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1000000x5 : S_.BroadcastsInDim S1000000x5 (![] : Fin 0 → Fin S1000000x5.rank)
  reducesTo_S1000000x5_S_d0_1 : S1000000x5.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg5 : FVec F S64 .f32) (main_arg6 : FVec F S2x64x64 .f32) (main_arg7 : FVec F S2x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64x64 .f32 := Host.absf main_arg6
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  main_v33

def fn {F : FTy → Type} [FloatOps F] (main_arg0 : FVec F S50000x64 .f32) (main_arg1 : IVec S2x1000000 32) (main_arg2 : FVec F S1000000 .f32) (main_arg3 : FVec F S1000000x5 .f32) (main_arg4 : FVec F S64x64 .f32) (main_arg5 : FVec F S64 .f32) (main_arg6 : FVec F S2x64x64 .f32) (main_arg7 : FVec F S2x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000x5 .f32 := Host.absf main_arg3
  let main_cst_2 : FVec F S_ .f32 := constant S_ .f32 0x7F800000#32
  let main_v10 : FVec F S1000000x5 .f32 := broadcastInDim S1000000x5 ![] bcast_S_S1000000x5 main_cst_2
  let main_v11 : IVec S1000000x5 1 := cmpf .olt main_v9 main_v10
  let main_c_3 : IVec S_ 1 := constantI S_ 1 1#1
  let main_v12 : IVec S_ 1 := (fun x v => Host.reduce IntOp.andi x v reducesTo_S1000000x5_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x1000000 : Shape := ⟨2, ![2, 1000000]⟩
abbrev S1000000 : Shape := ⟨1, ![1000000]⟩
abbrev S1000000x5 : Shape := ⟨2, ![1000000, 5]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S1x1000000 : Shape := ⟨2, ![1, 1000000]⟩
abbrev S_ : Shape := ⟨0, ![]⟩
abbrev S50000 : Shape := ⟨1, ![50000]⟩
abbrev S1000000x1 : Shape := ⟨2, ![1000000, 1]⟩
abbrev S5000x64 : Shape := ⟨2, ![5000, 64]⟩
abbrev S1x64 : Shape := ⟨2, ![1, 64]⟩
abbrev S1x64x64 : Shape := ⟨3, ![1, 64, 64]⟩
abbrev S1000000x64 : Shape := ⟨2, ![1000000, 64]⟩

abbrev nBuf : Space → Nat
  | .hbm => 100
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000, .f32⟩
  | .hbm, ⟨3, _⟩ => ⟨S1000000x5, .f32⟩
  | .hbm, ⟨4, _⟩ => ⟨S64x64, .f32⟩
  | .hbm, ⟨5, _⟩ => ⟨S64, .f32⟩
  | .hbm, ⟨6, _⟩ => ⟨S2x64x64, .f32⟩
  | .hbm, ⟨7, _⟩ => ⟨S2x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S50000, .f32⟩
  | .hbm, ⟨14, _⟩ => ⟨S1000000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000, .f32⟩
  | .hbm, ⟨40, _⟩ => ⟨S1000000, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000, .f32⟩
  | .hbm, ⟨50, _⟩ => ⟨S1000000, .f32⟩
  | .hbm, ⟨51, _⟩ => ⟨S50000x64, .f32⟩
  | .hbm, ⟨52, _⟩ => ⟨S1x64x64, .f32⟩
  | .hbm, ⟨53, _⟩ => ⟨S64x64, .f32⟩
  | .hbm, ⟨54, _⟩ => ⟨S_, .f32⟩
  | .hbm, ⟨55, _⟩ => ⟨S64, .f32⟩
  | .hbm, ⟨56, _⟩ => ⟨S50000x64, .f32⟩
  | .hbm, ⟨57, _⟩ => ⟨S1000000x1, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S1000000x64, .f32⟩
  | .hbm, ⟨68, _⟩ => ⟨S1000000x64, .f32⟩
  | .hbm, ⟨69, _⟩ => ⟨S_, .f32⟩
  | .hbm, ⟨70, _⟩ => ⟨S50000x64, .f32⟩
  | .hbm, ⟨71, _⟩ => ⟨S1000000x1, .i32⟩
  | .hbm, ⟨72, _⟩ => ⟨S50000x64, .f32⟩
  | .hbm, ⟨73, _⟩ => ⟨S1x64, .f32⟩
  | .hbm, ⟨74, _⟩ => ⟨S64, .f32⟩
  | .hbm, ⟨75, _⟩ => ⟨S50000x64, .f32⟩
  | .hbm, ⟨76, _⟩ => ⟨S1x64x64, .f32⟩
  | .hbm, ⟨77, _⟩ => ⟨S64x64, .f32⟩
  | .hbm, ⟨78, _⟩ => ⟨S_, .f32⟩
  | .hbm, ⟨79, _⟩ => ⟨S64, .f32⟩
  | .hbm, ⟨80, _⟩ => ⟨S50000x64, .f32⟩
  | .hbm, ⟨81, _⟩ => ⟨S1000000x1, .f32⟩
  | .hbm, ⟨82, _⟩ => ⟨S_, .i32⟩
  | .hbm, ⟨83, _⟩ => ⟨S1000000, .i32⟩
  | .hbm, ⟨84, _⟩ => ⟨S1000000, .i1⟩
  | .hbm, ⟨85, _⟩ => ⟨S_, .i32⟩
  | .hbm, ⟨86, _⟩ => ⟨S1000000, .i32⟩
  | .hbm, ⟨87, _⟩ => ⟨S1000000, .i32⟩
  | .hbm, ⟨88, _⟩ => ⟨S1000000, .i32⟩
  | .hbm, ⟨89, _⟩ => ⟨S1000000x1, .i32⟩
  | .hbm, ⟨90, _⟩ => ⟨S1000000x64, .f32⟩
  | .hbm, ⟨91, _⟩ => ⟨S1000000x64, .f32⟩
  | .hbm, ⟨92, _⟩ => ⟨S1000000x64, .f32⟩
  | .hbm, ⟨93, _⟩ => ⟨S_, .f32⟩
  | .hbm, ⟨94, _⟩ => ⟨S50000x64, .f32⟩
  | .hbm, ⟨95, _⟩ => ⟨S1000000x1, .i32⟩
  | .hbm, ⟨96, _⟩ => ⟨S50000x64, .f32⟩
  | .hbm, ⟨97, _⟩ => ⟨S1x64, .f32⟩
  | .hbm, ⟨98, _⟩ => ⟨S64, .f32⟩
  | .hbm, ⟨99, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  slices_S2x64x64_S1x64x64_0_0_0 : S2x64x64.Slices ![0, 0, 0] S1x64x64
  shapeCasts_S1x64x64_S64x64 : S1x64x64.ShapeCasts S64x64
  bcast_S_S64 : S_.BroadcastsInDim S64 (![] : Fin 0 → Fin S64.rank)
  shapeCasts_S5000x64_S5000x64 : S5000x64.ShapeCasts S5000x64
  shapeCasts_S64x64_S64x64 : S64x64.ShapeCasts S64x64
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  slices_S2x64_S1x64_0_0 : S2x64.Slices ![0, 0] S1x64
  shapeCasts_S1x64_S64 : S1x64.ShapeCasts S64
  shapeCasts_S64_S64 : S64.ShapeCasts S64
  slices_S2x64x64_S1x64x64_1_0_0 : S2x64x64.Slices ![1, 0, 0] S1x64x64
  slices_S2x64_S1x64_1_0 : S2x64.Slices ![1, 0] S1x64
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S5000x64_S64x64_S5000x64_1_0_0_1_n_n_wf : DotDims.WF S5000x64 S64x64 S5000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v50) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S1000000 : Shape := ⟨1, ![1000000]⟩
abbrev S1000000x5 : Shape := ⟨2, ![1000000, 5]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S1x1000000 : Shape := ⟨2, ![1, 1000000]⟩
abbrev S_ : Shape := ⟨0, ![]⟩
abbrev S50000 : Shape := ⟨1, ![50000]⟩
abbrev S1000000x1 : Shape := ⟨2, ![1000000, 1]⟩
abbrev S1x64 : Shape := ⟨2, ![1, 64]⟩
abbrev S1x64x64 : Shape := ⟨3, ![1, 64, 64]⟩
abbrev S1000000x64 : Shape := ⟨2, ![1000000, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000, .f32⟩
  | .hbm, ⟨3, _⟩ => ⟨S1000000x5, .f32⟩
  | .hbm, ⟨4, _⟩ => ⟨S64x64, .f32⟩
  | .hbm, ⟨5, _⟩ => ⟨S64, .f32⟩
  | .hbm, ⟨6, _⟩ => ⟨S2x64x64, .f32⟩
  | .hbm, ⟨7, _⟩ => ⟨S2x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S50000, .f32⟩
  | .hbm, ⟨14, _⟩ => ⟨S1000000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000, .f32⟩
  | .hbm, ⟨40, _⟩ => ⟨S1000000, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000, .f32⟩
  | .hbm, ⟨50, _⟩ => ⟨S1000000, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S1x64x64, .f32⟩
  | .hbm, ⟨59, _⟩ => ⟨S64x64, .f32⟩
  | .hbm, ⟨60, _⟩ => ⟨S50000x64, .f32⟩
  | .hbm, ⟨61, _⟩ => ⟨S1000000x1, .f32⟩
  | .hbm, ⟨62, _⟩ => ⟨S_, .i32⟩
  | .hbm, ⟨63, _⟩ => ⟨S1000000, .i32⟩
  | .hbm, ⟨64, _⟩ => ⟨S1000000, .i1⟩
  | .hbm, ⟨65, _⟩ => ⟨S_, .i32⟩
  | .hbm, ⟨66, _⟩ => ⟨S1000000, .i32⟩
  | .hbm, ⟨67, _⟩ => ⟨S1000000, .i32⟩
  | .hbm, ⟨68, _⟩ => ⟨S1000000, .i32⟩
  | .hbm, ⟨69, _⟩ => ⟨S1000000x1, .i32⟩
  | .hbm, ⟨70, _⟩ => ⟨S1000000x64, .f32⟩
  | .hbm, ⟨71, _⟩ => ⟨S1000000x64, .f32⟩
  | .hbm, ⟨72, _⟩ => ⟨S1000000x64, .f32⟩
  | .hbm, ⟨73, _⟩ => ⟨S_, .f32⟩
  | .hbm, ⟨74, _⟩ => ⟨S50000x64, .f32⟩
  | .hbm, ⟨75, _⟩ => ⟨S1000000x1, .i32⟩
  | .hbm, ⟨76, _⟩ => ⟨S50000x64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S1x64x64, .f32⟩
  | .hbm, ⟨87, _⟩ => ⟨S64x64, .f32⟩
  | .hbm, ⟨88, _⟩ => ⟨S50000x64, .f32⟩
  | .hbm, ⟨89, _⟩ => ⟨S1000000x1, .f32⟩
  | .hbm, ⟨90, _⟩ => ⟨S_, .i32⟩
  | .hbm, ⟨91, _⟩ => ⟨S1000000, .i32⟩
  | .hbm, ⟨92, _⟩ => ⟨S1000000, .i1⟩
  | .hbm, ⟨93, _⟩ => ⟨S_, .i32⟩
  | .hbm, ⟨94, _⟩ => ⟨S1000000, .i32⟩
  | .hbm, ⟨95, _⟩ => ⟨S1000000, .i32⟩
  | .hbm, ⟨96, _⟩ => ⟨S1000000, .i32⟩
  | .hbm, ⟨97, _⟩ => ⟨S1000000x1, .i32⟩
  | .hbm, ⟨98, _⟩ => ⟨S1000000x64, .f32⟩
  | .hbm, ⟨99, _⟩ => ⟨S1000000x64, .f32⟩
  | .hbm, ⟨100, _⟩ => ⟨S1000000x64, .f32⟩
  | .hbm, ⟨101, _⟩ => ⟨S_, .f32⟩
  | .hbm, ⟨102, _⟩ => ⟨S50000x64, .f32⟩
  | .hbm, ⟨103, _⟩ => ⟨S1000000x1, .i32⟩
  | .hbm, ⟨104, _⟩ => ⟨S50000x64, .f32⟩
  | .hbm, ⟨105, _⟩ => ⟨S1x64, .f32⟩
  | .hbm, ⟨106, _⟩ => ⟨S64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000x64, .f32⟩
  | .hbm, ⟨112, _⟩ => ⟨S50000x64, .f32⟩
  | .hbm, ⟨113, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call2_cst : Ref sig .tc := ⟨.hbm, 55, rfl⟩
abbrev main_call2_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call3_cst : Ref sig .tc := ⟨.hbm, 82, rfl⟩
abbrev main_call3_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call4_cst : Ref sig .tc := ⟨.hbm, 110, rfl⟩
abbrev main_call4_v0 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x64x64_S1x64x64_0_0_0 : S2x64x64.Slices ![0, 0, 0] S1x64x64
  shapeCasts_S1x64x64_S64x64 : S1x64x64.ShapeCasts S64x64
  bcast_S1000000x1_S1000000x64_0_1 : S1000000x1.BroadcastsInDim S1000000x64 (![0, 1] : Fin 2 → Fin S1000000x64.rank)
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

class Facts : Prop extends Facts₀ where

variable [Facts]
-- ==== Proof.Spec.lean ====
/-
  The mathematics both programs compute, stage by stage, as named functions of whole arrays.

  A graph of 50000 nodes with 64 features each and 1000000 weighted edges `(s, d, w)`. The symmetric
  normalisation gives edge `e` the coefficient `ν e = δ (s e) · w e · δ (d e)`, where `deg n` is the sum of the
  weights of the edges that end in `n` and `δ n = deg n ^ (-1/2)` where `deg n > 0`, else `0`. The first
  layer is `o₀ = max (x · W + b, 0)`. Each of the two convolution layers maps `o` to
  `o + max (A (o · Wᵢ) + bᵢ, 0)`, where `A h` adds, into row `d e`, the row `s e` of `h` scaled by `ν e`,
  over all edges `e`. Every function below is one of these stages, spelt with the host operations in the
  order the plain program applies them, so that the composed result is that program's result term as it stands.
-/
import proofs.«153343_j45449343926354_1_alg».proof.ReferenceIdeal

noncomputable section

namespace Cert.Spec

open Idealize.ShloMosaic Cert.ReferenceIdeal Cert.ReferenceIdeal.Facts₀ Cert.ReferenceIdeal.Facts

variable {F : FTy → Type} [FloatOps F] [Cert.ReferenceIdeal.Facts]

/-- Row `0` of the edge list: each edge's source node. -/
def src (e : (⟨S2x1000000, .i32⟩ : BufTy).Contents (Elt F)) : (⟨S1000000, .i32⟩ : BufTy).Contents (Elt F) :=
  shapeCast _ (extractStridedSlice S1x1000000 ![0, 0] e slices_S2x1000000_S1x1000000_0_0) shapeCasts_S1x1000000_S1000000

/-- Row `1` of the edge list: each edge's destination node. -/
def dst (e : (⟨S2x1000000, .i32⟩ : BufTy).Contents (Elt F)) : (⟨S1000000, .i32⟩ : BufTy).Contents (Elt F) :=
  shapeCast _ (extractStridedSlice S1x1000000 ![1, 0] e slices_S2x1000000_S1x1000000_1_0) shapeCasts_S1x1000000_S1000000

/-- A node list as a column of gather indices, a negative entry `v` read as `v + 50000`. -/
def wrap (v : (⟨S1000000, .i32⟩ : BufTy).Contents (Elt F)) : (⟨S1000000x1, .i32⟩ : BufTy).Contents (Elt F) :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 50000#32))) v)

/-- `deg n`: the sum of the weights of the edges that end in node `n`. -/
def deg (e : (⟨S2x1000000, .i32⟩ : BufTy).Contents (Elt F)) (w : (⟨S1000000, .f32⟩ : BufTy).Contents (Elt F)) :
    (⟨S50000, .f32⟩ : BufTy).Contents (Elt F) :=
  Host.scatterAdd scatter_S50000_S1000000x1_S1000000_n_0_0_1 (broadcastInDim S50000 ![] bcast_S_S50000 (constant S_ .f32 0x00000000#32))
    (broadcastInDim S1000000x1 ![0] bcast_S1000000_S1000000x1_0 (dst e)) w

/-- `δ n`: `deg n ^ (-1/2)` where `deg n > 0`, else `0` (the root taken of `1` where `deg n ≤ 0`). -/
def dinv (e : (⟨S2x1000000, .i32⟩ : BufTy).Contents (Elt F)) (w : (⟨S1000000, .f32⟩ : BufTy).Contents (Elt F)) :
    (⟨S50000, .f32⟩ : BufTy).Contents (Elt F) :=
  select (cmpf .ogt (deg e w) (broadcastInDim S50000 ![] bcast_S_S50000 (constant S_ .f32 0x00000000#32)))
    (Host.rsqrt (select (cmpf .ogt (deg e w) (broadcastInDim S50000 ![] bcast_S_S50000 (constant S_ .f32 0x00000000#32)))
      (deg e w) (broadcastInDim S50000 ![] bcast_S_S50000 (id (constant S_ .f32 0x3F800000#32)))))
    (broadcastInDim S50000 ![] bcast_S_S50000 (id (constant S_ .f32 0x00000000#32)))

/-- `ν e = δ (s e) · w e · δ (d e)`. -/
def norm (e : (⟨S2x1000000, .i32⟩ : BufTy).Contents (Elt F)) (w : (⟨S1000000, .f32⟩ : BufTy).Contents (Elt F)) :
    (⟨S1000000, .f32⟩ : BufTy).Contents (Elt F) :=
  mulf (mulf (Host.gather gather_S50000_S1000000x1_S1000000_n_0_n_n_0_1_1 (dinv e w) (wrap (src e))) w)
    (Host.gather gather_S50000_S1000000x1_S1000000_n_0_n_n_0_1_1 (dinv e w) (wrap (dst e)))

/-- The first layer: `max (x · W + b, 0)`, the bias row added to every row. -/
def lin0 (x : (⟨S50000x64, .f32⟩ : BufTy).Contents (Elt F)) (W : (⟨S64x64, .f32⟩ : BufTy).Contents (Elt F))
    (b : (⟨S64, .f32⟩ : BufTy).Contents (Elt F)) : (⟨S50000x64, .f32⟩ : BufTy).Contents (Elt F) :=
  maximumf (addf (Host.dotGeneral dot_S50000x64_S64x64_S50000x64_1_0_0_1_n_n none x W)
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- A layer's linear map: `o · W`. -/
def lin (o : (⟨S50000x64, .f32⟩ : BufTy).Contents (Elt F)) (W : (⟨S64x64, .f32⟩ : BufTy).Contents (Elt F)) :
    (⟨S50000x64, .f32⟩ : BufTy).Contents (Elt F) :=
  Host.dotGeneral dot_S50000x64_S64x64_S50000x64_1_0_0_1_n_n none o W

/-- Layer `0`'s weight matrix. -/
def wmat0 (cw : (⟨S2x64x64, .f32⟩ : BufTy).Contents (Elt F)) : (⟨S64x64, .f32⟩ : BufTy).Contents (Elt F) :=
  shapeCast _ (extractStridedSlice S1x64x64 ![0, 0, 0] cw slices_S2x64x64_S1x64x64_0_0_0) shapeCasts_S1x64x64_S64x64

/-- Layer `1`'s weight matrix. -/
def wmat1 (cw : (⟨S2x64x64, .f32⟩ : BufTy).Contents (Elt F)) : (⟨S64x64, .f32⟩ : BufTy).Contents (Elt F) :=
  shapeCast _ (extractStridedSlice S1x64x64 ![1, 0, 0] cw slices_S2x64x64_S1x64x64_1_0_0) shapeCasts_S1x64x64_S64x64

/-- Layer `0`'s bias row. -/
def cbias0 (cb : (⟨S2x64, .f32⟩ : BufTy).Contents (Elt F)) : (⟨S64, .f32⟩ : BufTy).Contents (Elt F) :=
  shapeCast _ (extractStridedSlice S1x64 ![0, 0] cb slices_S2x64_S1x64_0_0) shapeCasts_S1x64_S64

/-- Layer `1`'s bias row. -/
def cbias1 (cb : (⟨S2x64, .f32⟩ : BufTy).Contents (Elt F)) : (⟨S64, .f32⟩ : BufTy).Contents (Elt F) :=
  shapeCast _ (extractStridedSlice S1x64 ![1, 0] cb slices_S2x64_S1x64_1_0) shapeCasts_S1x64_S64

/-- `A h`: into row `d e`, the row `s e` of `h` scaled by the coefficients `ν e`, summed over the edges. -/
def agg (sIdx dIdx : (⟨S1000000, .i32⟩ : BufTy).Contents (Elt F)) (ν : (⟨S1000000, .f32⟩ : BufTy).Contents (Elt F))
    (h : (⟨S50000x64, .f32⟩ : BufTy).Contents (Elt F)) : (⟨S50000x64, .f32⟩ : BufTy).Contents (Elt F) :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 dIdx)
    (mulf (broadcastInDim S1000000x64 ![0, 1] bcast_S1000000x1_S1000000x64_0_1 (broadcastInDim S1000000x1 ![0] bcast_S1000000_S1000000x1_0 ν))
      (Host.gather gather_S50000x64_S1000000x1_S1000000x64_1_0_n_n_0_1_164 h (wrap sIdx)))

/-- A layer's close: `o + max (a + b, 0)`, the bias row added to every row of `a`. -/
def res (o a : (⟨S50000x64, .f32⟩ : BufTy).Contents (Elt F)) (b : (⟨S64, .f32⟩ : BufTy).Contents (Elt F)) :
    (⟨S50000x64, .f32⟩ : BufTy).Contents (Elt F) :=
  addf o (maximumf (addf a (broadcastInDim S50000x64 ![0, 1] bcast_S1x64_S50000x64_0_1 (broadcastInDim S1x64 ![1] bcast_S64_S1x64_1 b)))
    (broadcastInDim S50000x64 ![] bcast_S_S50000x64 (constant S_ .f32 0x00000000#32)))

/-- One convolution layer on the node features `o`, with weight matrix `W` and bias row `b`. -/
def layer (e : (⟨S2x1000000, .i32⟩ : BufTy).Contents (Elt F)) (w : (⟨S1000000, .f32⟩ : BufTy).Contents (Elt F))
    (o : (⟨S50000x64, .f32⟩ : BufTy).Contents (Elt F)) (W : (⟨S64x64, .f32⟩ : BufTy).Contents (Elt F))
    (b : (⟨S64, .f32⟩ : BufTy).Contents (Elt F)) : (⟨S50000x64, .f32⟩ : BufTy).Contents (Elt F) :=
  res o (agg (src e) (dst e) (norm e w) (lin o W)) b

/-- The whole network: the first layer, then the two convolution layers. -/
def out (x : (⟨S50000x64, .f32⟩ : BufTy).Contents (Elt F)) (e : (⟨S2x1000000, .i32⟩ : BufTy).Contents (Elt F))
    (w : (⟨S1000000, .f32⟩ : BufTy).Contents (Elt F)) (lw : (⟨S64x64, .f32⟩ : BufTy).Contents (Elt F))
    (lb : (⟨S64, .f32⟩ : BufTy).Contents (Elt F)) (cw : (⟨S2x64x64, .f32⟩ : BufTy).Contents (Elt F))
    (cb : (⟨S2x64, .f32⟩ : BufTy).Contents (Elt F)) : (⟨S50000x64, .f32⟩ : BufTy).Contents (Elt F) :=
  layer e w (layer e w (lin0 x lw lb) (wmat0 cw) (cbias0 cb)) (wmat1 cw) (cbias1 cb)

end Cert.Spec

end
-- ==== Proof.WalkA.lean ====
/-
  The kernel program's buffers when its first region is entered, as stages of the arguments.

  Before the first region @main computes, on the host, the edge list's two rows, the degree sums, their inverse
  roots and the edge coefficients `ν`: the same operations in the same order as the plain program's, so each
  buffer holds the stage of that name. No host operation writes an argument. The longer chains are read one
  host stretch at a time, each stretch as a function of the contents it starts from.
-/
import proofs.«153343_j45449343926354_1_alg».proof.Proof.Gen.KernelIdeal.Frame
import proofs.«153343_j45449343926354_1_alg».proof.Proof.Gen.ReferenceIdeal
import proofs.«153343_j45449343926354_1_alg».proof.Proof.Spec
import Idealize.ShloMosaic.PureOps.Ideal

set_option maxRecDepth 16384

noncomputable section

namespace Cert.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## One host stretch from any contents `X` -/

section Stretch
variable (X : Valuation τ sig (Elt Ideal))

/-- The degree sums where positive, else `1`. -/
theorem stretch1_v9 : StableHlo.after hostOps0_1 X (Proc.devRef .tc main_v9)
    = select (X (Proc.devRef .tc main_v8)) (X (Proc.devRef .tc main_v6)) (broadcastInDim Cert.ReferenceIdeal.S50000 ![] Cert.ReferenceIdeal.Facts₀.bcast_S_S50000 (id (X (Proc.devRef .tc main_cst_1)))) := by
  dsimp only [hostOps0_1]; after_results_simp <;> rfl
/-- Which degree sums are positive. -/
theorem stretch2_v11 : StableHlo.after hostOps0_2 X (Proc.devRef .tc main_v11) = cmpf .ogt (X (Proc.devRef .tc main_v6)) (broadcastInDim Cert.ReferenceIdeal.S50000 ![] Cert.ReferenceIdeal.Facts₀.bcast_S_S50000 (constant (F := Ideal) Cert.ReferenceIdeal.S_ .f32 0x00000000#32)) := by
  dsimp only [hostOps0_2]; after_results_simp <;> rfl
/-- The inverse roots. -/
theorem stretch2_v12 : StableHlo.after hostOps0_2 X (Proc.devRef .tc main_v12) = (Host.rsqrt (X (Proc.devRef .tc main_v9)) : FVec Ideal Cert.ReferenceIdeal.S50000 .f32) := by
  dsimp only [hostOps0_2]; after_results_simp <;> rfl
theorem stretch2_cst3 : StableHlo.after hostOps0_2 X (Proc.devRef .tc main_cst_3) = constant (F := Ideal) Cert.ReferenceIdeal.S_ .f32 0x00000000#32 := by
  dsimp only [hostOps0_2]; after_results_simp <;> rfl
/-- The inverse roots where the degree sum is positive, else `0`. -/
theorem stretch3_v13 : StableHlo.after hostOps0_3 X (Proc.devRef .tc main_v13)
    = select (X (Proc.devRef .tc main_v11)) (X (Proc.devRef .tc main_v12)) (broadcastInDim Cert.ReferenceIdeal.S50000 ![] Cert.ReferenceIdeal.Facts₀.bcast_S_S50000 (id (X (Proc.devRef .tc main_cst_3)))) := by
  dsimp only [hostOps0_3]; after_results_simp <;> rfl
/-- The edge coefficients from the inverse roots, the two rows and the weights. -/
theorem stretch4_v29 : StableHlo.after hostOps0_4 X (Proc.devRef .tc main_v29)
    = (mulf (mulf (Host.gather Cert.ReferenceIdeal.gather_S50000_S1000000x1_S1000000_n_0_n_n_0_1_1 (X (Proc.devRef .tc main_v13)) (Cert.Spec.wrap (F := Ideal) (X (Proc.devRef .tc main_v1)))) (X (Proc.devRef .tc main_arg2)))
        (Host.gather Cert.ReferenceIdeal.gather_S50000_S1000000x1_S1000000_n_0_n_n_0_1_1 (X (Proc.devRef .tc main_v13)) (Cert.Spec.wrap (F := Ideal) (X (Proc.devRef .tc main_v3)))) : FVec Ideal Cert.ReferenceIdeal.S1000000 .f32) := by
  dsimp only [hostOps0_4]; after_results_simp <;> rfl

end Stretch

/-! ## The contents at each boundary -/

local macro "entry1" : tactic => `(tactic| dsimp only [W1, W0, hostOps0])
local macro "entry2" : tactic => `(tactic| dsimp only [W2, W1, W0, hostOps0, hostOps0_1])
local macro "entry4" : tactic =>
  `(tactic| dsimp only [W4, W3, W2, W1, W0, hostOps0, hostOps0_1, hostOps0_2, hostOps0_3])
local macro "entry5" : tactic =>
  `(tactic| dsimp only [W5, W4, W3, W2, W1, W0, hostOps0, hostOps0_1, hostOps0_2, hostOps0_3, hostOps0_4])

theorem W1_v6 : W1 m ρ c (Proc.devRef .tc main_v6) = (Cert.Spec.deg (F := Ideal) (m ((c : Thread nD τ).loc main_arg1)) (m ((c : Thread nD τ).loc main_arg2))) := by
  entry1; after_results_simp <;> rfl
theorem W1_v8 : W1 m ρ c (Proc.devRef .tc main_v8) = (cmpf .ogt (Cert.Spec.deg (F := Ideal) (m ((c : Thread nD τ).loc main_arg1)) (m ((c : Thread nD τ).loc main_arg2))) (broadcastInDim Cert.ReferenceIdeal.S50000 ![] Cert.ReferenceIdeal.Facts₀.bcast_S_S50000 (constant (F := Ideal) Cert.ReferenceIdeal.S_ .f32 0x00000000#32))) := by
  entry1; after_results_simp <;> rfl
theorem W1_cst_1 : W1 m ρ c (Proc.devRef .tc main_cst_1) = constant (F := Ideal) Cert.ReferenceIdeal.S_ .f32 0x3F800000#32 := by
  entry1; after_results_simp <;> rfl
theorem W2_v6 : W2 m ρ c (Proc.devRef .tc main_v6) = (Cert.Spec.deg (F := Ideal) (m ((c : Thread nD τ).loc main_arg1)) (m ((c : Thread nD τ).loc main_arg2))) := by
  entry2; after_results_simp <;> rfl
theorem W2_v9 : W2 m ρ c (Proc.devRef .tc main_v9) = (select (cmpf .ogt (Cert.Spec.deg (F := Ideal) (m ((c : Thread nD τ).loc main_arg1)) (m ((c : Thread nD τ).loc main_arg2))) (broadcastInDim Cert.ReferenceIdeal.S50000 ![] Cert.ReferenceIdeal.Facts₀.bcast_S_S50000 (constant (F := Ideal) Cert.ReferenceIdeal.S_ .f32 0x00000000#32))) (Cert.Spec.deg (F := Ideal) (m ((c : Thread nD τ).loc main_arg1)) (m ((c : Thread nD τ).loc main_arg2))) (broadcastInDim Cert.ReferenceIdeal.S50000 ![] Cert.ReferenceIdeal.Facts₀.bcast_S_S50000 (id (constant (F := Ideal) Cert.ReferenceIdeal.S_ .f32 0x3F800000#32)))) :=
  (stretch1_v9 (W1 m ρ c)).trans (by rw [W1_v8, W1_v6, W1_cst_1])
theorem W3_v11 : W3 m ρ c (Proc.devRef .tc main_v11) = (cmpf .ogt (Cert.Spec.deg (F := Ideal) (m ((c : Thread nD τ).loc main_arg1)) (m ((c : Thread nD τ).loc main_arg2))) (broadcastInDim Cert.ReferenceIdeal.S50000 ![] Cert.ReferenceIdeal.Facts₀.bcast_S_S50000 (constant (F := Ideal) Cert.ReferenceIdeal.S_ .f32 0x00000000#32))) :=
  (stretch2_v11 (W2 m ρ c)).trans (by rw [W2_v6])
theorem W3_v12 : W3 m ρ c (Proc.devRef .tc main_v12) = (Host.rsqrt (select (cmpf .ogt (Cert.Spec.deg (F := Ideal) (m ((c : Thread nD τ).loc main_arg1)) (m ((c : Thread nD τ).loc main_arg2))) (broadcastInDim Cert.ReferenceIdeal.S50000 ![] Cert.ReferenceIdeal.Facts₀.bcast_S_S50000 (constant (F := Ideal) Cert.ReferenceIdeal.S_ .f32 0x00000000#32))) (Cert.Spec.deg (F := Ideal) (m ((c : Thread nD τ).loc main_arg1)) (m ((c : Thread nD τ).loc main_arg2))) (broadcastInDim Cert.ReferenceIdeal.S50000 ![] Cert.ReferenceIdeal.Facts₀.bcast_S_S50000 (id (constant (F := Ideal) Cert.ReferenceIdeal.S_ .f32 0x3F800000#32)))) : FVec Ideal Cert.ReferenceIdeal.S50000 .f32) :=
  (stretch2_v12 (W2 m ρ c)).trans (by rw [W2_v9])
theorem W3_cst_3 : W3 m ρ c (Proc.devRef .tc main_cst_3) = constant (F := Ideal) Cert.ReferenceIdeal.S_ .f32 0x00000000#32 :=
  stretch2_cst3 (W2 m ρ c)
/-- The inverse roots of the degree sums. -/
theorem W4_v13 : W4 m ρ c (Proc.devRef .tc main_v13) = (Cert.Spec.dinv (F := Ideal) (m ((c : Thread nD τ).loc main_arg1)) (m ((c : Thread nD τ).loc main_arg2))) :=
  (stretch3_v13 (W3 m ρ c)).trans (by rw [W3_v11, W3_v12, W3_cst_3]; rfl)
theorem W4_arg2 : W4 m ρ c (Proc.devRef .tc main_arg2) = (m ((c : Thread nD τ).loc main_arg2)) := by
  entry4; after_results_simp <;> rfl
theorem W4_v1 : W4 m ρ c (Proc.devRef .tc main_v1) = (Cert.Spec.src (F := Ideal) (m ((c : Thread nD τ).loc main_arg1))) := by
  entry4; after_results_simp <;> rfl
theorem W4_v3 : W4 m ρ c (Proc.devRef .tc main_v3) = (Cert.Spec.dst (F := Ideal) (m ((c : Thread nD τ).loc main_arg1))) := by
  entry4; after_results_simp <;> rfl

theorem W5_arg0 : W5 m ρ c (Proc.devRef .tc main_arg0) = (m ((c : Thread nD τ).loc main_arg0)) := by
  entry5; after_results_simp <;> rfl
theorem W5_arg4 : W5 m ρ c (Proc.devRef .tc main_arg4) = (m ((c : Thread nD τ).loc main_arg4)) := by
  entry5; after_results_simp <;> rfl
theorem W5_arg5 : W5 m ρ c (Proc.devRef .tc main_arg5) = (m ((c : Thread nD τ).loc main_arg5)) := by
  entry5; after_results_simp <;> rfl
theorem W5_arg6 : W5 m ρ c (Proc.devRef .tc main_arg6) = (m ((c : Thread nD τ).loc main_arg6)) := by
  entry5; after_results_simp <;> rfl
theorem W5_arg7 : W5 m ρ c (Proc.devRef .tc main_arg7) = (m ((c : Thread nD τ).loc main_arg7)) := by
  entry5; after_results_simp <;> rfl
/-- The edges' source nodes. -/
theorem W5_v1 : W5 m ρ c (Proc.devRef .tc main_v1) = (Cert.Spec.src (F := Ideal) (m ((c : Thread nD τ).loc main_arg1))) := by
  entry5; after_results_simp <;> rfl
/-- The edges' destination nodes. -/
theorem W5_v3 : W5 m ρ c (Proc.devRef .tc main_v3) = (Cert.Spec.dst (F := Ideal) (m ((c : Thread nD τ).loc main_arg1))) := by
  entry5; after_results_simp <;> rfl
/-- The edge coefficients `ν e = δ (s e) · w e · δ (d e)`. -/
theorem W5_v29 : W5 m ρ c (Proc.devRef .tc main_v29) = (Cert.Spec.norm (F := Ideal) (m ((c : Thread nD τ).loc main_arg1)) (m ((c : Thread nD τ).loc main_arg2))) :=
  (stretch4_v29 (W4 m ρ c)).trans (by rw [W4_v13, W4_v1, W4_v3, W4_arg2]; rfl)

end Cert.Walk

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Blocks.lean ====
/-
  The three kernel bodies on a block of 5000 rows, against the whole-array stages.

  Each body computes row `r` of its result from row `r` of its row-blocked operands alone (the weight matrix
  and the bias row are read whole at every grid point): a product with a matrix on the right, a bias row added to
  every row, a maximum with zero, a sum. So if every blocked operand is rows `5000·t, …, 5000·t + 4999` of its array,
  the body's value is those rows of the stage's value. A change of float format is the identity on extended
  reals, a product into a zero accumulator is the plain product, and a reshape to the same shape changes nothing.
-/
import proofs.«153343_j45449343926354_1_alg».proof.Proof.LibRowBlock
import proofs.«153343_j45449343926354_1_alg».proof.Proof.Spec
import proofs.«153343_j45449343926354_1_alg».proof.Proof.Gen.KernelIdeal.Skeleton
import proofs.«153343_j45449343926354_1_alg».proof.Proof.Gen.ReferenceIdeal

noncomputable section

namespace Cert.Blocks

open Idealize.ShloMosaic Idealize.ShloMosaic.ValueIdx Cert.RowBlock

/-- The plain program's product `[50000, 64] × [64, 64]` contracts the left operand's columns with the right's rows. -/
theorem plain_whole : IsRows.Plain Cert.ReferenceIdeal.dot_S50000x64_S64x64_S50000x64_1_0_0_1_n_n 1 0 0 1 :=
  ⟨rfl, rfl, rfl, rfl, rfl, rfl⟩

/-- So does the kernels' product `[5000, 64] × [64, 64]`. -/
theorem plain_block : IsRows.Plain Cert.KernelIdeal.dot_S5000x64_S64x64_S5000x64_1_0_0_1_n_n 1 0 0 1 :=
  ⟨rfl, rfl, rfl, rfl, rfl, rfl⟩

variable {t : Nat}

/-- The first layer's body: `max (x · W + b, 0)` on a row block is the row block of `max (X · W + b, 0)`. -/
theorem lin0_rows {X : FVec Ideal ⟨2, ![50000, 64]⟩ .f32} {x : FVec Ideal ⟨2, ![5000, 64]⟩ .f32} (H : IsRows 5000 t X x)
    (W w : FVec Ideal ⟨2, ![64, 64]⟩ .f32) (hW : ∀ k j, w (ix2 k j) = W (ix2 k j)) (b b' : FVec Ideal ⟨1, ![64]⟩ .f32) (hb : b' = b) :
    IsRows 5000 t (Cert.Spec.lin0 (F := Ideal) X W b) (Cert.KernelIdeal.Gen.k0_pay1 (F := Ideal) x w b') := by
  subst hb
  unfold Cert.Spec.lin0 Cert.KernelIdeal.Gen.k0_pay1
  exact ((IsRows.dot (H.trunc _) _ _ plain_whole plain_block W _ hW).add (IsRows.bias _ _ _ _ _)).maxf (IsRows.splat .f32 _ _)

/-- A layer's linear map: `o · W` on a row block is the row block of `O · W`. -/
theorem lin_rows1 {O : FVec Ideal ⟨2, ![50000, 64]⟩ .f32} {o : FVec Ideal ⟨2, ![5000, 64]⟩ .f32} (H : IsRows 5000 t O o)
    (W w : FVec Ideal ⟨2, ![64, 64]⟩ .f32) (hW : ∀ k j, w (ix2 k j) = W (ix2 k j)) :
    IsRows 5000 t (Cert.Spec.lin (F := Ideal) O W) (Cert.KernelIdeal.Gen.k1_pay1 (F := Ideal) o w) := by
  unfold Cert.Spec.lin Cert.KernelIdeal.Gen.k1_pay1
  simp only [shapeCast_self]
  exact IsRows.dot (H.trunc _) _ _ plain_whole plain_block W _ hW

/-- The same body at the second layer. -/
theorem lin_rows3 {O : FVec Ideal ⟨2, ![50000, 64]⟩ .f32} {o : FVec Ideal ⟨2, ![5000, 64]⟩ .f32} (H : IsRows 5000 t O o)
    (W w : FVec Ideal ⟨2, ![64, 64]⟩ .f32) (hW : ∀ k j, w (ix2 k j) = W (ix2 k j)) :
    IsRows 5000 t (Cert.Spec.lin (F := Ideal) O W) (Cert.KernelIdeal.Gen.k3_pay1 (F := Ideal) o w) := by
  unfold Cert.Spec.lin Cert.KernelIdeal.Gen.k3_pay1
  simp only [shapeCast_self]
  exact IsRows.dot (H.trunc _) _ _ plain_whole plain_block W _ hW

/-- A layer's close: `o + max (a + b, 0)` on row blocks is the row block of `O + max (A + b, 0)`. -/
theorem res_rows2 {O A : FVec Ideal ⟨2, ![50000, 64]⟩ .f32} {o a : FVec Ideal ⟨2, ![5000, 64]⟩ .f32}
    (Ho : IsRows 5000 t O o) (Ha : IsRows 5000 t A a) (b b' : FVec Ideal ⟨1, ![64]⟩ .f32) (hb : b' = b) :
    IsRows 5000 t (Cert.Spec.res (F := Ideal) O A b) (Cert.KernelIdeal.Gen.k2_pay1 (F := Ideal) a b' o) := by
  subst hb
  unfold Cert.Spec.res Cert.KernelIdeal.Gen.k2_pay1
  simp only [shapeCast_self]
  exact Ho.add ((Ha.add (IsRows.bias _ _ _ _ _)).maxf (IsRows.splat .f32 _ _))

/-- The same body at the second layer. -/
theorem res_rows4 {O A : FVec Ideal ⟨2, ![50000, 64]⟩ .f32} {o a : FVec Ideal ⟨2, ![5000, 64]⟩ .f32}
    (Ho : IsRows 5000 t O o) (Ha : IsRows 5000 t A a) (b b' : FVec Ideal ⟨1, ![64]⟩ .f32) (hb : b' = b) :
    IsRows 5000 t (Cert.Spec.res (F := Ideal) O A b) (Cert.KernelIdeal.Gen.k4_pay1 (F := Ideal) a b' o) := by
  subst hb
  unfold Cert.Spec.res Cert.KernelIdeal.Gen.k4_pay1
  simp only [shapeCast_self]
  exact Ho.add ((Ha.add (IsRows.bias _ _ _ _ _)).maxf (IsRows.splat .f32 _ _))

end Cert.Blocks

end
-- ==== Proof.RegionBase.lean ====
/-
  Two offset vectors that are zero: a body's loads and stores at offset `(0, 0)` (or `(0)`) of a whole staging
  buffer read and write the buffer itself.
-/
import Mathlib.Data.Fin.VecNotation

namespace Cert.Regions

theorem zero2 : (![0, 0] : Fin 2 → Nat) = fun _ => 0 :=
  funext fun a => match a with | ⟨0, _⟩ => rfl | ⟨1, _⟩ => rfl
theorem zero1 : (![0] : Fin 1 → Nat) = fun _ => 0 :=
  funext fun a => match a with | ⟨0, _⟩ => rfl

end Cert.Regions
-- ==== Proof.Region0.lean ====
/-
  Region 0's output array, after the region, as one whole-array stage of the arrays the region entered with: the first layer, `max (x · W + b, 0)`.

  The region walks a grid of ten points; point `t` fetches rows `5000·t, …, 5000·t + 4999` of each row-blocked
  operand (a weight matrix and a bias row are fetched whole), runs the body, and writes the result back to the same
  rows of the output array. The ten row blocks tile the 50000 rows, and on each block the body's value is
  that block of the stage's value (Blocks), so the output array ends holding the stage's value.
-/
import proofs.«153343_j45449343926354_1_alg».proof.Proof.Gen.KernelIdeal.Frame
import proofs.«153343_j45449343926354_1_alg».proof.Proof.Blocks
import proofs.«153343_j45449343926354_1_alg».proof.Proof.RegionBase
import Idealize.ShloMosaic.Lib.Pipeline.Value

set_option maxRecDepth 16384

noncomputable section

namespace Cert.Regions

open Cert.KernelIdeal Cert.KernelIdeal.Gen Cert.RowBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps over the grid: the row-blocked windows sit at block row `t`, the others at block `0`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Window 0's block at point `t` is rows `5000·t, …` of its array. -/
theorem rows0_0 (c : Dev nD) (t : Fin cfg0.N) : IsRows 5000 t.val (V c main_arg0) (iblk0 V c 0 t) := by
  intro p j r hr
  obtain ⟨e0, e1, e2, e3, e4, e5, e6⟩ := idx0 t
  show V c main_arg0 (((cfg0.win 0).blk t).view.emb (ix2 p j)) = V c main_arg0 (ix2 r j)
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * j.val = j.val; omega

/-- Window 1's block at every point is the whole weight matrix. -/
theorem whole0_1 (c : Dev nD) (t : Fin cfg0.N) (k j : Fin 64) : iblk0 V c 1 t (ix2 k j) = V c main_arg4 (ix2 k j) := by
  obtain ⟨e0, e1, e2, e3, e4, e5, e6⟩ := idx0 t
  show V c main_arg4 (((cfg0.win 1).blk t).view.emb (ix2 k j)) = V c main_arg4 (ix2 k j)
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * j.val = j.val; omega

/-- Window 2's block at every point is the whole bias row. -/
theorem whole0_2 (c : Dev nD) (t : Fin cfg0.N) : iblk0 V c 2 t = V c main_arg5 := by
  obtain ⟨e0, e1, e2, e3, e4, e5, e6⟩ := idx0 t
  funext i
  show V c main_arg5 (((cfg0.win 2).blk t).view.emb i) = V c main_arg5 i
  refine congrArg _ (funext fun a => Fin.ext ?_)
  match a with
  | ⟨0, _⟩ => show win0_2.index t (0 : Fin 1) * 64 + 1 * (i 0).val = (i 0).val; omega

/-- What point `t` writes back is block `t` of the stage's value. -/
theorem flushed0 (c : Dev nD) (t : Fin cfg0.N) :
    (dat0 V c).flushed 3 t = ((cfg0.win 3).blk t).view.read (Elt Ideal) (Cert.Spec.lin0 (F := Ideal) (V c main_arg0) (V c main_arg4) (V c main_arg5)) := by
  show (cfg0.win 3).cut (grid0.coords t) ((dat0 V c).after 3 t) = _
  rw [after0_3]
  unfold out0_3
  rw [View.canon_unit_zero zero2]
  simp only [View.ld_unit_zero (S := S5000x64) zero2, View.ld_unit_zero (S := S64x64) zero2, View.ld_unit_zero (S := S64) zero1]
  obtain ⟨e0, e1, e2, e3, e4, e5, e6⟩ := idx0 t
  funext y
  obtain ⟨p, j, rfl⟩ : ∃ (p : Fin 5000) (j : Fin 64), y = ix2 p j := ⟨y 0, y 1, eq_ix2 y⟩
  have ht : t.val < 10 := t.isLt
  have hr : 5000 * t.val + p.val < 50000 := by have := p.isLt; omega
  have he : ((cfg0.win 3).blk t).view.emb (ix2 p j) = ix2 (⟨5000 * t.val + p.val, hr⟩ : Fin 50000) j := by
    refine funext fun a => Fin.ext ?_
    match a with
    | ⟨0, _⟩ => show win0_3.index t (0 : Fin 2) * 5000 + 1 * p.val = 5000 * t.val + p.val; omega
    | ⟨1, _⟩ => show win0_3.index t (1 : Fin 2) * 64 + 1 * j.val = j.val; omega
  show k0_pay1 (F := Ideal) (iblk0 V c 0 t) (iblk0 V c 1 t) (iblk0 V c 2 t) (ix2 p j) = (Cert.Spec.lin0 (F := Ideal) (V c main_arg0) (V c main_arg4) (V c main_arg5)) (((cfg0.win 3).blk t).view.emb (ix2 p j))
  rw [he]
  exact Cert.Blocks.lin0_rows (rows0_0 V c t) (V c main_arg4) (iblk0 V c 1 t) (whole0_1 V c t) (V c main_arg5) (iblk0 V c 2 t) (whole0_2 V c t) p j ⟨_, hr⟩ rfl

/-- An index of the output array is in point `t`'s block iff each coordinate is in the block's range. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v30).slice (win0_3.rect t)).set ↔ _
  rw [View.set_slice_whole, Rect.mem_set_unit]
  exact Iff.rfl

/-- Row `r` is in the block of point `r / 5000`. -/
theorem cover0 (i : S50000x64.Idx) : ∃ t : Fin cfg0.N, (cfg0.win 3).flush t = true ∧ i ∈ ((cfg0.win 3).blk t).view.set := by
  have h0 : (i 0).val < 50000 := (i 0).isLt
  have h1 : (i 1).val < 64 := (i 1).isLt
  obtain ⟨t, ht⟩ : ∃ t : Fin cfg0.N, t.val = (i 0).val / 5000 := ⟨⟨(i 0).val / 5000, by show _ < 10; omega⟩, rfl⟩
  refine ⟨t, flush0_3 t, ?_⟩
  rw [mem_blk0]
  obtain ⟨e0, e1, e2, e3, e4, e5, e6⟩ := idx0 t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after region 0. -/
theorem region0 (c : Dev nD) : (dat0 V c).arrAt 3 cfg0.N = Cert.Spec.lin0 (F := Ideal) (V c main_arg0) (V c main_arg4) (V c main_arg5) :=
  (dat0 V c).arrAt_eq_of_cover 3 _ (fun t _ => flushed0 V c t) cover0

end Cert.Regions

end
-- ==== Proof.Region1.lean ====
/-
  Region 1's output array, after the region, as one whole-array stage of the arrays the region entered with: a layer's linear map, `o · W`.

  The region walks a grid of ten points; point `t` fetches rows `5000·t, …, 5000·t + 4999` of each row-blocked
  operand (a weight matrix and a bias row are fetched whole), runs the body, and writes the result back to the same
  rows of the output array. The ten row blocks tile the 50000 rows, and on each block the body's value is
  that block of the stage's value (Blocks), so the output array ends holding the stage's value.
-/
import proofs.«153343_j45449343926354_1_alg».proof.Proof.Gen.KernelIdeal.Frame
import proofs.«153343_j45449343926354_1_alg».proof.Proof.Blocks
import proofs.«153343_j45449343926354_1_alg».proof.Proof.RegionBase
import Idealize.ShloMosaic.Lib.Pipeline.Value

set_option maxRecDepth 16384

noncomputable section

namespace Cert.Regions

open Cert.KernelIdeal Cert.KernelIdeal.Gen Cert.RowBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps over the grid: the row-blocked windows sit at block row `t`, the others at block `0`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Window 0's block at point `t` is rows `5000·t, …` of its array. -/
theorem rows1_0 (c : Dev nD) (t : Fin cfg1.N) : IsRows 5000 t.val (V c main_v30) (iblk1 V c 0 t) := by
  intro p j r hr
  obtain ⟨e0, e1, e2, e3, e4, e5, e6⟩ := idx1 t
  show V c main_v30 (((cfg1.win 0).blk t).view.emb (ix2 p j)) = V c main_v30 (ix2 r j)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * j.val = j.val; omega

/-- Window 1's block at every point is the whole weight matrix. -/
theorem whole1_1 (c : Dev nD) (t : Fin cfg1.N) (k j : Fin 64) : iblk1 V c 1 t (ix2 k j) = V c main_v32 (ix2 k j) := by
  obtain ⟨e0, e1, e2, e3, e4, e5, e6⟩ := idx1 t
  show V c main_v32 (((cfg1.win 1).blk t).view.emb (ix2 k j)) = V c main_v32 (ix2 k j)
  refine congrArg _ (funext fun a => Fin.ext ?_)
  match a with
  | ⟨0, _⟩ => show win1_1.index t (0 : Fin 2) * 64 + 1 * k.val = k.val; omega
  | ⟨1, _⟩ => show win1_1.index t (1 : Fin 2) * 64 + 1 * j.val = j.val; omega

/-- What point `t` writes back is block `t` of the stage's value. -/
theorem flushed1 (c : Dev nD) (t : Fin cfg1.N) :
    (dat1 V c).flushed 3 t = ((cfg1.win 3).blk t).view.read (Elt Ideal) (Cert.Spec.lin (F := Ideal) (V c main_v30) (V c main_v32)) := by
  show (cfg1.win 3).cut (grid1.coords t) ((dat1 V c).after 3 t) = _
  rw [after1_3]
  unfold out1_3
  rw [View.canon_unit_zero zero2]
  simp only [View.ld_unit_zero (S := S5000x64) zero2, View.ld_unit_zero (S := S64x64) zero2]
  obtain ⟨e0, e1, e2, e3, e4, e5, e6⟩ := idx1 t
  funext y
  obtain ⟨p, j, rfl⟩ : ∃ (p : Fin 5000) (j : Fin 64), y = ix2 p j := ⟨y 0, y 1, eq_ix2 y⟩
  have ht : t.val < 10 := t.isLt
  have hr : 5000 * t.val + p.val < 50000 := by have := p.isLt; omega
  have he : ((cfg1.win 3).blk t).view.emb (ix2 p j) = ix2 (⟨5000 * t.val + p.val, hr⟩ : Fin 50000) j := by
    refine funext fun a => Fin.ext ?_
    match a with
    | ⟨0, _⟩ => show win1_3.index t (0 : Fin 2) * 5000 + 1 * p.val = 5000 * t.val + p.val; omega
    | ⟨1, _⟩ => show win1_3.index t (1 : Fin 2) * 64 + 1 * j.val = j.val; omega
  show k1_pay1 (F := Ideal) (iblk1 V c 0 t) (iblk1 V c 1 t) (ix2 p j) = (Cert.Spec.lin (F := Ideal) (V c main_v30) (V c main_v32)) (((cfg1.win 3).blk t).view.emb (ix2 p j))
  rw [he]
  exact Cert.Blocks.lin_rows1 (rows1_0 V c t) (V c main_v32) (iblk1 V c 1 t) (whole1_1 V c t) p j ⟨_, hr⟩ rfl

/-- An index of the output array is in point `t`'s block iff each coordinate is in the block's range. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v34).slice (win1_3.rect t)).set ↔ _
  rw [View.set_slice_whole, Rect.mem_set_unit]
  exact Iff.rfl

/-- Row `r` is in the block of point `r / 5000`. -/
theorem cover1 (i : S50000x64.Idx) : ∃ t : Fin cfg1.N, (cfg1.win 3).flush t = true ∧ i ∈ ((cfg1.win 3).blk t).view.set := by
  have h0 : (i 0).val < 50000 := (i 0).isLt
  have h1 : (i 1).val < 64 := (i 1).isLt
  obtain ⟨t, ht⟩ : ∃ t : Fin cfg1.N, t.val = (i 0).val / 5000 := ⟨⟨(i 0).val / 5000, by show _ < 10; omega⟩, rfl⟩
  refine ⟨t, flush1_3 t, ?_⟩
  rw [mem_blk1]
  obtain ⟨e0, e1, e2, e3, e4, e5, e6⟩ := idx1 t
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after region 1. -/
theorem region1 (c : Dev nD) : (dat1 V c).arrAt 3 cfg1.N = Cert.Spec.lin (F := Ideal) (V c main_v30) (V c main_v32) :=
  (dat1 V c).arrAt_eq_of_cover 3 _ (fun t _ => flushed1 V c t) cover1

end Cert.Regions

end
-- ==== Proof.Region2.lean ====
/-
  Region 2's output array, after the region, as one whole-array stage of the arrays the region entered with: a layer's close, `o + max (a + b, 0)`.

  The region walks a grid of ten points; point `t` fetches rows `5000·t, …, 5000·t + 4999` of each row-blocked
  operand (a weight matrix and a bias row are fetched whole), runs the body, and writes the result back to the same
  rows of the output array. The ten row blocks tile the 50000 rows, and on each block the body's value is
  that block of the stage's value (Blocks), so the output array ends holding the stage's value.
-/
import proofs.«153343_j45449343926354_1_alg».proof.Proof.Gen.KernelIdeal.Frame
import proofs.«153343_j45449343926354_1_alg».proof.Proof.Blocks
import proofs.«153343_j45449343926354_1_alg».proof.Proof.RegionBase
import Idealize.ShloMosaic.Lib.Pipeline.Value

set_option maxRecDepth 16384

noncomputable section

namespace Cert.Regions

open Cert.KernelIdeal Cert.KernelIdeal.Gen Cert.RowBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps over the grid: the row-blocked windows sit at block row `t`, the others at block `0`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Window 0's block at point `t` is rows `5000·t, …` of its array. -/
theorem rows2_0 (c : Dev nD) (t : Fin cfg2.N) : IsRows 5000 t.val (V c main_v30) (iblk2 V c 0 t) := by
  intro p j r hr
  obtain ⟨e0, e1, e2, e3, e4, e5, e6⟩ := idx2 t
  show V c main_v30 (((cfg2.win 0).blk t).view.emb (ix2 p j)) = V c main_v30 (ix2 r j)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * j.val = j.val; omega

/-- Window 1's block at point `t` is rows `5000·t, …` of its array. -/
theorem rows2_1 (c : Dev nD) (t : Fin cfg2.N) : IsRows 5000 t.val (V c main_v47) (iblk2 V c 1 t) := by
  intro p j r hr
  obtain ⟨e0, e1, e2, e3, e4, e5, e6⟩ := idx2 t
  show V c main_v47 (((cfg2.win 1).blk t).view.emb (ix2 p j)) = V c main_v47 (ix2 r j)
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * j.val = j.val; omega

/-- Window 2's block at every point is the whole bias row. -/
theorem whole2_2 (c : Dev nD) (t : Fin cfg2.N) : iblk2 V c 2 t = V c main_v49 := by
  obtain ⟨e0, e1, e2, e3, e4, e5, e6⟩ := idx2 t
  funext i
  show V c main_v49 (((cfg2.win 2).blk t).view.emb i) = V c main_v49 i
  refine congrArg _ (funext fun a => Fin.ext ?_)
  match a with
  | ⟨0, _⟩ => show win2_2.index t (0 : Fin 1) * 64 + 1 * (i 0).val = (i 0).val; omega

/-- What point `t` writes back is block `t` of the stage's value. -/
theorem flushed2 (c : Dev nD) (t : Fin cfg2.N) :
    (dat2 V c).flushed 3 t = ((cfg2.win 3).blk t).view.read (Elt Ideal) (Cert.Spec.res (F := Ideal) (V c main_v30) (V c main_v47) (V c main_v49)) := by
  show (cfg2.win 3).cut (grid2.coords t) ((dat2 V c).after 3 t) = _
  rw [after2_3]
  unfold out2_3
  rw [View.canon_unit_zero zero2]
  simp only [View.ld_unit_zero (S := S5000x64) zero2, View.ld_unit_zero (S := S64) zero1]
  obtain ⟨e0, e1, e2, e3, e4, e5, e6⟩ := idx2 t
  funext y
  obtain ⟨p, j, rfl⟩ : ∃ (p : Fin 5000) (j : Fin 64), y = ix2 p j := ⟨y 0, y 1, eq_ix2 y⟩
  have ht : t.val < 10 := t.isLt
  have hr : 5000 * t.val + p.val < 50000 := by have := p.isLt; omega
  have he : ((cfg2.win 3).blk t).view.emb (ix2 p j) = ix2 (⟨5000 * t.val + p.val, hr⟩ : Fin 50000) j := by
    refine funext fun a => Fin.ext ?_
    match a with
    | ⟨0, _⟩ => show win2_3.index t (0 : Fin 2) * 5000 + 1 * p.val = 5000 * t.val + p.val; omega
    | ⟨1, _⟩ => show win2_3.index t (1 : Fin 2) * 64 + 1 * j.val = j.val; omega
  show k2_pay1 (F := Ideal) (iblk2 V c 1 t) (iblk2 V c 2 t) (iblk2 V c 0 t) (ix2 p j) = (Cert.Spec.res (F := Ideal) (V c main_v30) (V c main_v47) (V c main_v49)) (((cfg2.win 3).blk t).view.emb (ix2 p j))
  rw [he]
  exact Cert.Blocks.res_rows2 (rows2_0 V c t) (rows2_1 V c t) (V c main_v49) (iblk2 V c 2 t) (whole2_2 V c t) p j ⟨_, hr⟩ rfl

/-- An index of the output array is in point `t`'s block iff each coordinate is in the block's range. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v50).slice (win2_3.rect t)).set ↔ _
  rw [View.set_slice_whole, Rect.mem_set_unit]
  exact Iff.rfl

/-- Row `r` is in the block of point `r / 5000`. -/
theorem cover2 (i : S50000x64.Idx) : ∃ t : Fin cfg2.N, (cfg2.win 3).flush t = true ∧ i ∈ ((cfg2.win 3).blk t).view.set := by
  have h0 : (i 0).val < 50000 := (i 0).isLt
  have h1 : (i 1).val < 64 := (i 1).isLt
  obtain ⟨t, ht⟩ : ∃ t : Fin cfg2.N, t.val = (i 0).val / 5000 := ⟨⟨(i 0).val / 5000, by show _ < 10; omega⟩, rfl⟩
  refine ⟨t, flush2_3 t, ?_⟩
  rw [mem_blk2]
  obtain ⟨e0, e1, e2, e3, e4, e5, e6⟩ := idx2 t
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after region 2. -/
theorem region2 (c : Dev nD) : (dat2 V c).arrAt 3 cfg2.N = Cert.Spec.res (F := Ideal) (V c main_v30) (V c main_v47) (V c main_v49) :=
  (dat2 V c).arrAt_eq_of_cover 3 _ (fun t _ => flushed2 V c t) cover2

end Cert.Regions

end
-- ==== Proof.WalkB.lean ====
/-
  The kernel program's buffers from its first region to the end of the first convolution layer.

  Region 0 leaves the first layer's features `o₀`; the host takes layer 0's weight matrix; region 1 leaves `o₀ · W₀`;
  the host gathers, scales by `ν` and scatter-adds it into the aggregate and takes layer 0's bias row; region 2 leaves
  `o₁ = o₀ + max (aggregate + b₀, 0)`. A region writes its output array only, and a host stretch the buffers of its own
  operations, so every other buffer is carried through unchanged.
-/
import proofs.«153343_j45449343926354_1_alg».proof.Proof.WalkA
import proofs.«153343_j45449343926354_1_alg».proof.Proof.Region0
import proofs.«153343_j45449343926354_1_alg».proof.Proof.Region1
import proofs.«153343_j45449343926354_1_alg».proof.Proof.Region2

set_option maxRecDepth 16384

noncomputable section

namespace Cert.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0 -/

/-- The first layer's features. -/
theorem W6_v30 : W6 m ρ c (Proc.devRef .tc main_v30) = (Cert.Spec.lin0 (F := Ideal) (m ((c : Thread nD τ).loc main_arg0)) (m ((c : Thread nD τ).loc main_arg4)) (m ((c : Thread nD τ).loc main_arg5))) :=
  (W6_arr m ρ c 3).trans ((Cert.Regions.region0 (V5 m ρ) c).trans (by dsimp only [V5]; rw [W5_arg0, W5_arg4, W5_arg5]))
theorem W6_v1 : W6 m ρ c (Proc.devRef .tc main_v1) = (Cert.Spec.src (F := Ideal) (m ((c : Thread nD τ).loc main_arg1))) :=
  (W6_of_ne m ρ c main_v1 (by decide)).trans (W5_v1 m ρ c)
theorem W6_v3 : W6 m ρ c (Proc.devRef .tc main_v3) = (Cert.Spec.dst (F := Ideal) (m ((c : Thread nD τ).loc main_arg1))) :=
  (W6_of_ne m ρ c main_v3 (by decide)).trans (W5_v3 m ρ c)
theorem W6_v29 : W6 m ρ c (Proc.devRef .tc main_v29) = (Cert.Spec.norm (F := Ideal) (m ((c : Thread nD τ).loc main_arg1)) (m ((c : Thread nD τ).loc main_arg2))) :=
  (W6_of_ne m ρ c main_v29 (by decide)).trans (W5_v29 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)

/-! ## The host stretch before region 1 -/

/-- Layer 0's weight matrix. -/
theorem W7_v32 : W7 m ρ c (Proc.devRef .tc main_v32) = (Cert.Spec.wmat0 (F := Ideal) (m ((c : Thread nD τ).loc main_arg6))) := by
  dsimp only [W7, hostOps1]; after_results_simp; rw [W6_arg6]; rfl
theorem W7_v30 : W7 m ρ c (Proc.devRef .tc main_v30) = (Cert.Spec.lin0 (F := Ideal) (m ((c : Thread nD τ).loc main_arg0)) (m ((c : Thread nD τ).loc main_arg4)) (m ((c : Thread nD τ).loc main_arg5))) :=
  (by dsimp only [W7, hostOps1]; after_results_simp : W7 m ρ c (Proc.devRef .tc main_v30) = W6 m ρ c (Proc.devRef .tc main_v30)).trans (W6_v30 m ρ c)
theorem W7_v1 : W7 m ρ c (Proc.devRef .tc main_v1) = (Cert.Spec.src (F := Ideal) (m ((c : Thread nD τ).loc main_arg1))) :=
  (by dsimp only [W7, hostOps1]; after_results_simp : W7 m ρ c (Proc.devRef .tc main_v1) = W6 m ρ c (Proc.devRef .tc main_v1)).trans (W6_v1 m ρ c)
theorem W7_v3 : W7 m ρ c (Proc.devRef .tc main_v3) = (Cert.Spec.dst (F := Ideal) (m ((c : Thread nD τ).loc main_arg1))) :=
  (by dsimp only [W7, hostOps1]; after_results_simp : W7 m ρ c (Proc.devRef .tc main_v3) = W6 m ρ c (Proc.devRef .tc main_v3)).trans (W6_v3 m ρ c)
theorem W7_v29 : W7 m ρ c (Proc.devRef .tc main_v29) = (Cert.Spec.norm (F := Ideal) (m ((c : Thread nD τ).loc main_arg1)) (m ((c : Thread nD τ).loc main_arg2))) :=
  (by dsimp only [W7, hostOps1]; after_results_simp : W7 m ρ c (Proc.devRef .tc main_v29) = W6 m ρ c (Proc.devRef .tc main_v29)).trans (W6_v29 m ρ c)
theorem W7_arg6 : W7 m ρ c (Proc.devRef .tc main_arg6) = (m ((c : Thread nD τ).loc main_arg6)) :=
  (by dsimp only [W7, hostOps1]; after_results_simp : W7 m ρ c (Proc.devRef .tc main_arg6) = W6 m ρ c (Proc.devRef .tc main_arg6)).trans (W6_arg6 m ρ c)
theorem W7_arg7 : W7 m ρ c (Proc.devRef .tc main_arg7) = (m ((c : Thread nD τ).loc main_arg7)) :=
  (by dsimp only [W7, hostOps1]; after_results_simp : W7 m ρ c (Proc.devRef .tc main_arg7) = W6 m ρ c (Proc.devRef .tc main_arg7)).trans (W6_arg7 m ρ c)

/-! ## Region 1 -/

/-- `o₀ · W₀`. -/
theorem W8_v34 : W8 m ρ c (Proc.devRef .tc main_v34) = (Cert.Spec.lin (F := Ideal) (Cert.Spec.lin0 (F := Ideal) (m ((c : Thread nD τ).loc main_arg0)) (m ((c : Thread nD τ).loc main_arg4)) (m ((c : Thread nD τ).loc main_arg5))) (Cert.Spec.wmat0 (F := Ideal) (m ((c : Thread nD τ).loc main_arg6)))) :=
  (W8_arr m ρ c 3).trans ((Cert.Regions.region1 (V7 m ρ) c).trans (by dsimp only [V7]; rw [W7_v30, W7_v32]))
/-- Region 1 reads the first layer's features through an input window: they stay as entered. -/
theorem W8_v30 : W8 m ρ c (Proc.devRef .tc main_v30) = (Cert.Spec.lin0 (F := Ideal) (m ((c : Thread nD τ).loc main_arg0)) (m ((c : Thread nD τ).loc main_arg4)) (m ((c : Thread nD τ).loc main_arg5))) :=
  ((W8_arr m ρ c 0).trans (((dat1 (V7 m ρ) c).arrAt_in 0 rfl _).trans (A_eq1 (V7 m ρ) c 0))).trans (W7_v30 m ρ c)
theorem W8_v1 : W8 m ρ c (Proc.devRef .tc main_v1) = (Cert.Spec.src (F := Ideal) (m ((c : Thread nD τ).loc main_arg1))) :=
  (W8_of_ne m ρ c main_v1 (by decide)).trans (W7_v1 m ρ c)
theorem W8_v3 : W8 m ρ c (Proc.devRef .tc main_v3) = (Cert.Spec.dst (F := Ideal) (m ((c : Thread nD τ).loc main_arg1))) :=
  (W8_of_ne m ρ c main_v3 (by decide)).trans (W7_v3 m ρ c)
theorem W8_v29 : W8 m ρ c (Proc.devRef .tc main_v29) = (Cert.Spec.norm (F := Ideal) (m ((c : Thread nD τ).loc main_arg1)) (m ((c : Thread nD τ).loc main_arg2))) :=
  (W8_of_ne m ρ c main_v29 (by decide)).trans (W7_v29 m ρ c)
theorem W8_arg6 : W8 m ρ c (Proc.devRef .tc main_arg6) = (m ((c : Thread nD τ).loc main_arg6)) :=
  (W8_of_ne m ρ c main_arg6 (by decide)).trans (W7_arg6 m ρ c)
theorem W8_arg7 : W8 m ρ c (Proc.devRef .tc main_arg7) = (m ((c : Thread nD τ).loc main_arg7)) :=
  (W8_of_ne m ρ c main_arg7 (by decide)).trans (W7_arg7 m ρ c)

/-! ## The host stretch before region 2 -/

set_option maxRecDepth 200000 in
/-- The aggregate of `o₀ · W₀` over the edges. -/
theorem W9_v47 : W9 m ρ c (Proc.devRef .tc main_v47) = (Cert.Spec.agg (F := Ideal) (Cert.Spec.src (F := Ideal) (m ((c : Thread nD τ).loc main_arg1))) (Cert.Spec.dst (F := Ideal) (m ((c : Thread nD τ).loc main_arg1))) (Cert.Spec.norm (F := Ideal) (m ((c : Thread nD τ).loc main_arg1)) (m ((c : Thread nD τ).loc main_arg2))) (Cert.Spec.lin (F := Ideal) (Cert.Spec.lin0 (F := Ideal) (m ((c : Thread nD τ).loc main_arg0)) (m ((c : Thread nD τ).loc main_arg4)) (m ((c : Thread nD τ).loc main_arg5))) (Cert.Spec.wmat0 (F := Ideal) (m ((c : Thread nD τ).loc main_arg6))))) := by
  dsimp only [W9, hostOps2]; after_results_simp; rw [W8_v29, W8_v1, W8_v3, W8_v34]; rfl
/-- Layer 0's bias row. -/
theorem W9_v49 : W9 m ρ c (Proc.devRef .tc main_v49) = (Cert.Spec.cbias0 (F := Ideal) (m ((c : Thread nD τ).loc main_arg7))) := by
  dsimp only [W9, hostOps2]; after_results_simp; rw [W8_arg7]; rfl
theorem W9_v30 : W9 m ρ c (Proc.devRef .tc main_v30) = (Cert.Spec.lin0 (F := Ideal) (m ((c : Thread nD τ).loc main_arg0)) (m ((c : Thread nD τ).loc main_arg4)) (m ((c : Thread nD τ).loc main_arg5))) :=
  (by dsimp only [W9, hostOps2]; after_results_simp : W9 m ρ c (Proc.devRef .tc main_v30) = W8 m ρ c (Proc.devRef .tc main_v30)).trans (W8_v30 m ρ c)
theorem W9_v1 : W9 m ρ c (Proc.devRef .tc main_v1) = (Cert.Spec.src (F := Ideal) (m ((c : Thread nD τ).loc main_arg1))) :=
  (by dsimp only [W9, hostOps2]; after_results_simp : W9 m ρ c (Proc.devRef .tc main_v1) = W8 m ρ c (Proc.devRef .tc main_v1)).trans (W8_v1 m ρ c)
theorem W9_v3 : W9 m ρ c (Proc.devRef .tc main_v3) = (Cert.Spec.dst (F := Ideal) (m ((c : Thread nD τ).loc main_arg1))) :=
  (by dsimp only [W9, hostOps2]; after_results_simp : W9 m ρ c (Proc.devRef .tc main_v3) = W8 m ρ c (Proc.devRef .tc main_v3)).trans (W8_v3 m ρ c)
theorem W9_v29 : W9 m ρ c (Proc.devRef .tc main_v29) = (Cert.Spec.norm (F := Ideal) (m ((c : Thread nD τ).loc main_arg1)) (m ((c : Thread nD τ).loc main_arg2))) :=
  (by dsimp only [W9, hostOps2]; after_results_simp : W9 m ρ c (Proc.devRef .tc main_v29) = W8 m ρ c (Proc.devRef .tc main_v29)).trans (W8_v29 m ρ c)
theorem W9_arg6 : W9 m ρ c (Proc.devRef .tc main_arg6) = (m ((c : Thread nD τ).loc main_arg6)) :=
  (by dsimp only [W9, hostOps2]; after_results_simp : W9 m ρ c (Proc.devRef .tc main_arg6) = W8 m ρ c (Proc.devRef .tc main_arg6)).trans (W8_arg6 m ρ c)
theorem W9_arg7 : W9 m ρ c (Proc.devRef .tc main_arg7) = (m ((c : Thread nD τ).loc main_arg7)) :=
  (by dsimp only [W9, hostOps2]; after_results_simp : W9 m ρ c (Proc.devRef .tc main_arg7) = W8 m ρ c (Proc.devRef .tc main_arg7)).trans (W8_arg7 m ρ c)

/-! ## Region 2 -/

/-- The features after the first convolution layer. -/
theorem W10_v50 : W10 m ρ c (Proc.devRef .tc main_v50) = (Cert.Spec.layer (F := Ideal) (m ((c : Thread nD τ).loc main_arg1)) (m ((c : Thread nD τ).loc main_arg2)) (Cert.Spec.lin0 (F := Ideal) (m ((c : Thread nD τ).loc main_arg0)) (m ((c : Thread nD τ).loc main_arg4)) (m ((c : Thread nD τ).loc main_arg5))) (Cert.Spec.wmat0 (F := Ideal) (m ((c : Thread nD τ).loc main_arg6))) (Cert.Spec.cbias0 (F := Ideal) (m ((c : Thread nD τ).loc main_arg7)))) :=
  (W10_arr m ρ c 3).trans ((Cert.Regions.region2 (V9 m ρ) c).trans (by dsimp only [V9]; rw [W9_v30, W9_v47, W9_v49]; rfl))
theorem W10_v1 : W10 m ρ c (Proc.devRef .tc main_v1) = (Cert.Spec.src (F := Ideal) (m ((c : Thread nD τ).loc main_arg1))) :=
  (W10_of_ne m ρ c main_v1 (by decide)).trans (W9_v1 m ρ c)
theorem W10_v3 : W10 m ρ c (Proc.devRef .tc main_v3) = (Cert.Spec.dst (F := Ideal) (m ((c : Thread nD τ).loc main_arg1))) :=
  (W10_of_ne m ρ c main_v3 (by decide)).trans (W9_v3 m ρ c)
theorem W10_v29 : W10 m ρ c (Proc.devRef .tc main_v29) = (Cert.Spec.norm (F := Ideal) (m ((c : Thread nD τ).loc main_arg1)) (m ((c : Thread nD τ).loc main_arg2))) :=
  (W10_of_ne m ρ c main_v29 (by decide)).trans (W9_v29 m ρ c)
theorem W10_arg6 : W10 m ρ c (Proc.devRef .tc main_arg6) = (m ((c : Thread nD τ).loc main_arg6)) :=
  (W10_of_ne m ρ c main_arg6 (by decide)).trans (W9_arg6 m ρ c)
theorem W10_arg7 : W10 m ρ c (Proc.devRef .tc main_arg7) = (m ((c : Thread nD τ).loc main_arg7)) :=
  (W10_of_ne m ρ c main_arg7 (by decide)).trans (W9_arg7 m ρ c)

end Cert.Walk

end
-- ==== Proof.Region3.lean ====
/-
  Region 3's output array, after the region, as one whole-array stage of the arrays the region entered with: a layer's linear map, `o · W`.

  The region walks a grid of ten points; point `t` fetches rows `5000·t, …, 5000·t + 4999` of each row-blocked
  operand (a weight matrix and a bias row are fetched whole), runs the body, and writes the result back to the same
  rows of the output array. The ten row blocks tile the 50000 rows, and on each block the body's value is
  that block of the stage's value (Blocks), so the output array ends holding the stage's value.
-/
import proofs.«153343_j45449343926354_1_alg».proof.Proof.Gen.KernelIdeal.Frame
import proofs.«153343_j45449343926354_1_alg».proof.Proof.Blocks
import proofs.«153343_j45449343926354_1_alg».proof.Proof.RegionBase
import Idealize.ShloMosaic.Lib.Pipeline.Value

set_option maxRecDepth 16384

noncomputable section

namespace Cert.Regions

open Cert.KernelIdeal Cert.KernelIdeal.Gen Cert.RowBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps over the grid: the row-blocked windows sit at block row `t`, the others at block `0`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Window 0's block at point `t` is rows `5000·t, …` of its array. -/
theorem rows3_0 (c : Dev nD) (t : Fin cfg3.N) : IsRows 5000 t.val (V c main_v50) (iblk3 V c 0 t) := by
  intro p j r hr
  obtain ⟨e0, e1, e2, e3, e4, e5, e6⟩ := idx3 t
  show V c main_v50 (((cfg3.win 0).blk t).view.emb (ix2 p j)) = V c main_v50 (ix2 r j)
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * j.val = j.val; omega

/-- Window 1's block at every point is the whole weight matrix. -/
theorem whole3_1 (c : Dev nD) (t : Fin cfg3.N) (k j : Fin 64) : iblk3 V c 1 t (ix2 k j) = V c main_v52 (ix2 k j) := by
  obtain ⟨e0, e1, e2, e3, e4, e5, e6⟩ := idx3 t
  show V c main_v52 (((cfg3.win 1).blk t).view.emb (ix2 k j)) = V c main_v52 (ix2 k j)
  refine congrArg _ (funext fun a => Fin.ext ?_)
  match a with
  | ⟨0, _⟩ => show win3_1.index t (0 : Fin 2) * 64 + 1 * k.val = k.val; omega
  | ⟨1, _⟩ => show win3_1.index t (1 : Fin 2) * 64 + 1 * j.val = j.val; omega

/-- What point `t` writes back is block `t` of the stage's value. -/
theorem flushed3 (c : Dev nD) (t : Fin cfg3.N) :
    (dat3 V c).flushed 3 t = ((cfg3.win 3).blk t).view.read (Elt Ideal) (Cert.Spec.lin (F := Ideal) (V c main_v50) (V c main_v52)) := by
  show (cfg3.win 3).cut (grid3.coords t) ((dat3 V c).after 3 t) = _
  rw [after3_3]
  unfold out3_3
  rw [View.canon_unit_zero zero2]
  simp only [View.ld_unit_zero (S := S5000x64) zero2, View.ld_unit_zero (S := S64x64) zero2]
  obtain ⟨e0, e1, e2, e3, e4, e5, e6⟩ := idx3 t
  funext y
  obtain ⟨p, j, rfl⟩ : ∃ (p : Fin 5000) (j : Fin 64), y = ix2 p j := ⟨y 0, y 1, eq_ix2 y⟩
  have ht : t.val < 10 := t.isLt
  have hr : 5000 * t.val + p.val < 50000 := by have := p.isLt; omega
  have he : ((cfg3.win 3).blk t).view.emb (ix2 p j) = ix2 (⟨5000 * t.val + p.val, hr⟩ : Fin 50000) j := by
    refine funext fun a => Fin.ext ?_
    match a with
    | ⟨0, _⟩ => show win3_3.index t (0 : Fin 2) * 5000 + 1 * p.val = 5000 * t.val + p.val; omega
    | ⟨1, _⟩ => show win3_3.index t (1 : Fin 2) * 64 + 1 * j.val = j.val; omega
  show k3_pay1 (F := Ideal) (iblk3 V c 0 t) (iblk3 V c 1 t) (ix2 p j) = (Cert.Spec.lin (F := Ideal) (V c main_v50) (V c main_v52)) (((cfg3.win 3).blk t).view.emb (ix2 p j))
  rw [he]
  exact Cert.Blocks.lin_rows3 (rows3_0 V c t) (V c main_v52) (iblk3 V c 1 t) (whole3_1 V c t) p j ⟨_, hr⟩ rfl

/-- An index of the output array is in point `t`'s block iff each coordinate is in the block's range. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v54).slice (win3_3.rect t)).set ↔ _
  rw [View.set_slice_whole, Rect.mem_set_unit]
  exact Iff.rfl

/-- Row `r` is in the block of point `r / 5000`. -/
theorem cover3 (i : S50000x64.Idx) : ∃ t : Fin cfg3.N, (cfg3.win 3).flush t = true ∧ i ∈ ((cfg3.win 3).blk t).view.set := by
  have h0 : (i 0).val < 50000 := (i 0).isLt
  have h1 : (i 1).val < 64 := (i 1).isLt
  obtain ⟨t, ht⟩ : ∃ t : Fin cfg3.N, t.val = (i 0).val / 5000 := ⟨⟨(i 0).val / 5000, by show _ < 10; omega⟩, rfl⟩
  refine ⟨t, flush3_3 t, ?_⟩
  rw [mem_blk3]
  obtain ⟨e0, e1, e2, e3, e4, e5, e6⟩ := idx3 t
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after region 3. -/
theorem region3 (c : Dev nD) : (dat3 V c).arrAt 3 cfg3.N = Cert.Spec.lin (F := Ideal) (V c main_v50) (V c main_v52) :=
  (dat3 V c).arrAt_eq_of_cover 3 _ (fun t _ => flushed3 V c t) cover3

end Cert.Regions

end
-- ==== Proof.Region4.lean ====
/-
  Region 4's output array, after the region, as one whole-array stage of the arrays the region entered with: a layer's close, `o + max (a + b, 0)`.

  The region walks a grid of ten points; point `t` fetches rows `5000·t, …, 5000·t + 4999` of each row-blocked
  operand (a weight matrix and a bias row are fetched whole), runs the body, and writes the result back to the same
  rows of the output array. The ten row blocks tile the 50000 rows, and on each block the body's value is
  that block of the stage's value (Blocks), so the output array ends holding the stage's value.
-/
import proofs.«153343_j45449343926354_1_alg».proof.Proof.Gen.KernelIdeal.Frame
import proofs.«153343_j45449343926354_1_alg».proof.Proof.Blocks
import proofs.«153343_j45449343926354_1_alg».proof.Proof.RegionBase
import Idealize.ShloMosaic.Lib.Pipeline.Value

set_option maxRecDepth 16384

noncomputable section

namespace Cert.Regions

open Cert.KernelIdeal Cert.KernelIdeal.Gen Cert.RowBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps over the grid: the row-blocked windows sit at block row `t`, the others at block `0`. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Window 0's block at point `t` is rows `5000·t, …` of its array. -/
theorem rows4_0 (c : Dev nD) (t : Fin cfg4.N) : IsRows 5000 t.val (V c main_v50) (iblk4 V c 0 t) := by
  intro p j r hr
  obtain ⟨e0, e1, e2, e3, e4, e5, e6⟩ := idx4 t
  show V c main_v50 (((cfg4.win 0).blk t).view.emb (ix2 p j)) = V c main_v50 (ix2 r j)
  refine congrArg _ (funext fun a => Fin.ext ?_)
  match a with
  | ⟨0, _⟩ => show win4_0.index t (0 : Fin 2) * 5000 + 1 * p.val = r.val; omega
  | ⟨1, _⟩ => show win4_0.index t (1 : Fin 2) * 64 + 1 * j.val = j.val; omega

/-- Window 1's block at point `t` is rows `5000·t, …` of its array. -/
theorem rows4_1 (c : Dev nD) (t : Fin cfg4.N) : IsRows 5000 t.val (V c main_v67) (iblk4 V c 1 t) := by
  intro p j r hr
  obtain ⟨e0, e1, e2, e3, e4, e5, e6⟩ := idx4 t
  show V c main_v67 (((cfg4.win 1).blk t).view.emb (ix2 p j)) = V c main_v67 (ix2 r j)
  refine congrArg _ (funext fun a => Fin.ext ?_)
  match a with
  | ⟨0, _⟩ => show win4_1.index t (0 : Fin 2) * 5000 + 1 * p.val = r.val; omega
  | ⟨1, _⟩ => show win4_1.index t (1 : Fin 2) * 64 + 1 * j.val = j.val; omega

/-- Window 2's block at every point is the whole bias row. -/
theorem whole4_2 (c : Dev nD) (t : Fin cfg4.N) : iblk4 V c 2 t = V c main_v69 := by
  obtain ⟨e0, e1, e2, e3, e4, e5, e6⟩ := idx4 t
  funext i
  show V c main_v69 (((cfg4.win 2).blk t).view.emb i) = V c main_v69 i
  refine congrArg _ (funext fun a => Fin.ext ?_)
  match a with
  | ⟨0, _⟩ => show win4_2.index t (0 : Fin 1) * 64 + 1 * (i 0).val = (i 0).val; omega

/-- What point `t` writes back is block `t` of the stage's value. -/
theorem flushed4 (c : Dev nD) (t : Fin cfg4.N) :
    (dat4 V c).flushed 3 t = ((cfg4.win 3).blk t).view.read (Elt Ideal) (Cert.Spec.res (F := Ideal) (V c main_v50) (V c main_v67) (V c main_v69)) := by
  show (cfg4.win 3).cut (grid4.coords t) ((dat4 V c).after 3 t) = _
  rw [after4_3]
  unfold out4_3
  rw [View.canon_unit_zero zero2]
  simp only [View.ld_unit_zero (S := S5000x64) zero2, View.ld_unit_zero (S := S64) zero1]
  obtain ⟨e0, e1, e2, e3, e4, e5, e6⟩ := idx4 t
  funext y
  obtain ⟨p, j, rfl⟩ : ∃ (p : Fin 5000) (j : Fin 64), y = ix2 p j := ⟨y 0, y 1, eq_ix2 y⟩
  have ht : t.val < 10 := t.isLt
  have hr : 5000 * t.val + p.val < 50000 := by have := p.isLt; omega
  have he : ((cfg4.win 3).blk t).view.emb (ix2 p j) = ix2 (⟨5000 * t.val + p.val, hr⟩ : Fin 50000) j := by
    refine funext fun a => Fin.ext ?_
    match a with
    | ⟨0, _⟩ => show win4_3.index t (0 : Fin 2) * 5000 + 1 * p.val = 5000 * t.val + p.val; omega
    | ⟨1, _⟩ => show win4_3.index t (1 : Fin 2) * 64 + 1 * j.val = j.val; omega
  show k4_pay1 (F := Ideal) (iblk4 V c 1 t) (iblk4 V c 2 t) (iblk4 V c 0 t) (ix2 p j) = (Cert.Spec.res (F := Ideal) (V c main_v50) (V c main_v67) (V c main_v69)) (((cfg4.win 3).blk t).view.emb (ix2 p j))
  rw [he]
  exact Cert.Blocks.res_rows4 (rows4_0 V c t) (rows4_1 V c t) (V c main_v69) (iblk4 V c 2 t) (whole4_2 V c t) p j ⟨_, hr⟩ rfl

/-- An index of the output array is in point `t`'s block iff each coordinate is in the block's range. -/
theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v70).slice (win4_3.rect t)).set ↔ _
  rw [View.set_slice_whole, Rect.mem_set_unit]
  exact Iff.rfl

/-- Row `r` is in the block of point `r / 5000`. -/
theorem cover4 (i : S50000x64.Idx) : ∃ t : Fin cfg4.N, (cfg4.win 3).flush t = true ∧ i ∈ ((cfg4.win 3).blk t).view.set := by
  have h0 : (i 0).val < 50000 := (i 0).isLt
  have h1 : (i 1).val < 64 := (i 1).isLt
  obtain ⟨t, ht⟩ : ∃ t : Fin cfg4.N, t.val = (i 0).val / 5000 := ⟨⟨(i 0).val / 5000, by show _ < 10; omega⟩, rfl⟩
  refine ⟨t, flush4_3 t, ?_⟩
  rw [mem_blk4]
  obtain ⟨e0, e1, e2, e3, e4, e5, e6⟩ := idx4 t
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The output array after region 4. -/
theorem region4 (c : Dev nD) : (dat4 V c).arrAt 3 cfg4.N = Cert.Spec.res (F := Ideal) (V c main_v50) (V c main_v67) (V c main_v69) :=
  (dat4 V c).arrAt_eq_of_cover 3 _ (fun t _ => flushed4 V c t) cover4

end Cert.Regions

end
-- ==== Proof.WalkC.lean ====
/-
  The kernel program's buffers through the second convolution layer, to the result.

  The host takes layer 1's weight matrix; region 3 leaves `o₁ · W₁`; the host aggregates it over the edges and takes
  layer 1's bias row; region 4 leaves `o₁ + max (aggregate + b₁, 0)`, the network's output.
-/
import proofs.«153343_j45449343926354_1_alg».proof.Proof.WalkB
import proofs.«153343_j45449343926354_1_alg».proof.Proof.Region3
import proofs.«153343_j45449343926354_1_alg».proof.Proof.Region4

set_option maxRecDepth 16384

noncomputable section

namespace Cert.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The host stretch before region 3 -/

/-- Layer 1's weight matrix. -/
theorem W11_v52 : W11 m ρ c (Proc.devRef .tc main_v52) = (Cert.Spec.wmat1 (F := Ideal) (m ((c : Thread nD τ).loc main_arg6))) := by
  dsimp only [W11, hostOps3]; after_results_simp; rw [W10_arg6]; rfl
theorem W11_v50 : W11 m ρ c (Proc.devRef .tc main_v50) = (Cert.Spec.layer (F := Ideal) (m ((c : Thread nD τ).loc main_arg1)) (m ((c : Thread nD τ).loc main_arg2)) (Cert.Spec.lin0 (F := Ideal) (m ((c : Thread nD τ).loc main_arg0)) (m ((c : Thread nD τ).loc main_arg4)) (m ((c : Thread nD τ).loc main_arg5))) (Cert.Spec.wmat0 (F := Ideal) (m ((c : Thread nD τ).loc main_arg6))) (Cert.Spec.cbias0 (F := Ideal) (m ((c : Thread nD τ).loc main_arg7)))) :=
  (by dsimp only [W11, hostOps3]; after_results_simp : W11 m ρ c (Proc.devRef .tc main_v50) = W10 m ρ c (Proc.devRef .tc main_v50)).trans (W10_v50 m ρ c)
theorem W11_v1 : W11 m ρ c (Proc.devRef .tc main_v1) = (Cert.Spec.src (F := Ideal) (m ((c : Thread nD τ).loc main_arg1))) :=
  (by dsimp only [W11, hostOps3]; after_results_simp : W11 m ρ c (Proc.devRef .tc main_v1) = W10 m ρ c (Proc.devRef .tc main_v1)).trans (W10_v1 m ρ c)
theorem W11_v3 : W11 m ρ c (Proc.devRef .tc main_v3) = (Cert.Spec.dst (F := Ideal) (m ((c : Thread nD τ).loc main_arg1))) :=
  (by dsimp only [W11, hostOps3]; after_results_simp : W11 m ρ c (Proc.devRef .tc main_v3) = W10 m ρ c (Proc.devRef .tc main_v3)).trans (W10_v3 m ρ c)
theorem W11_v29 : W11 m ρ c (Proc.devRef .tc main_v29) = (Cert.Spec.norm (F := Ideal) (m ((c : Thread nD τ).loc main_arg1)) (m ((c : Thread nD τ).loc main_arg2))) :=
  (by dsimp only [W11, hostOps3]; after_results_simp : W11 m ρ c (Proc.devRef .tc main_v29) = W10 m ρ c (Proc.devRef .tc main_v29)).trans (W10_v29 m ρ c)
theorem W11_arg7 : W11 m ρ c (Proc.devRef .tc main_arg7) = (m ((c : Thread nD τ).loc main_arg7)) :=
  (by dsimp only [W11, hostOps3]; after_results_simp : W11 m ρ c (Proc.devRef .tc main_arg7) = W10 m ρ c (Proc.devRef .tc main_arg7)).trans (W10_arg7 m ρ c)

/-! ## Region 3 -/

/-- `o₁ · W₁`. -/
theorem W12_v54 : W12 m ρ c (Proc.devRef .tc main_v54) = (Cert.Spec.lin (F := Ideal) (Cert.Spec.layer (F := Ideal) (m ((c : Thread nD τ).loc main_arg1)) (m ((c : Thread nD τ).loc main_arg2)) (Cert.Spec.lin0 (F := Ideal) (m ((c : Thread nD τ).loc main_arg0)) (m ((c : Thread nD τ).loc main_arg4)) (m ((c : Thread nD τ).loc main_arg5))) (Cert.Spec.wmat0 (F := Ideal) (m ((c : Thread nD τ).loc main_arg6))) (Cert.Spec.cbias0 (F := Ideal) (m ((c : Thread nD τ).loc main_arg7)))) (Cert.Spec.wmat1 (F := Ideal) (m ((c : Thread nD τ).loc main_arg6)))) :=
  (W12_arr m ρ c 3).trans ((Cert.Regions.region3 (V11 m ρ) c).trans (by dsimp only [V11]; rw [W11_v50, W11_v52]))
/-- Region 3 reads the first convolution layer's features through an input window: they stay as entered. -/
theorem W12_v50 : W12 m ρ c (Proc.devRef .tc main_v50) = (Cert.Spec.layer (F := Ideal) (m ((c : Thread nD τ).loc main_arg1)) (m ((c : Thread nD τ).loc main_arg2)) (Cert.Spec.lin0 (F := Ideal) (m ((c : Thread nD τ).loc main_arg0)) (m ((c : Thread nD τ).loc main_arg4)) (m ((c : Thread nD τ).loc main_arg5))) (Cert.Spec.wmat0 (F := Ideal) (m ((c : Thread nD τ).loc main_arg6))) (Cert.Spec.cbias0 (F := Ideal) (m ((c : Thread nD τ).loc main_arg7)))) :=
  ((W12_arr m ρ c 0).trans (((dat3 (V11 m ρ) c).arrAt_in 0 rfl _).trans (A_eq3 (V11 m ρ) c 0))).trans (W11_v50 m ρ c)
theorem W12_v1 : W12 m ρ c (Proc.devRef .tc main_v1) = (Cert.Spec.src (F := Ideal) (m ((c : Thread nD τ).loc main_arg1))) :=
  (W12_of_ne m ρ c main_v1 (by decide)).trans (W11_v1 m ρ c)
theorem W12_v3 : W12 m ρ c (Proc.devRef .tc main_v3) = (Cert.Spec.dst (F := Ideal) (m ((c : Thread nD τ).loc main_arg1))) :=
  (W12_of_ne m ρ c main_v3 (by decide)).trans (W11_v3 m ρ c)
theorem W12_v29 : W12 m ρ c (Proc.devRef .tc main_v29) = (Cert.Spec.norm (F := Ideal) (m ((c : Thread nD τ).loc main_arg1)) (m ((c : Thread nD τ).loc main_arg2))) :=
  (W12_of_ne m ρ c main_v29 (by decide)).trans (W11_v29 m ρ c)
theorem W12_arg7 : W12 m ρ c (Proc.devRef .tc main_arg7) = (m ((c : Thread nD τ).loc main_arg7)) :=
  (W12_of_ne m ρ c main_arg7 (by decide)).trans (W11_arg7 m ρ c)

/-! ## The host stretch before region 4 -/

set_option maxRecDepth 200000 in
/-- The aggregate of `o₁ · W₁` over the edges. -/
theorem W13_v67 : W13 m ρ c (Proc.devRef .tc main_v67) = (Cert.Spec.agg (F := Ideal) (Cert.Spec.src (F := Ideal) (m ((c : Thread nD τ).loc main_arg1))) (Cert.Spec.dst (F := Ideal) (m ((c : Thread nD τ).loc main_arg1))) (Cert.Spec.norm (F := Ideal) (m ((c : Thread nD τ).loc main_arg1)) (m ((c : Thread nD τ).loc main_arg2))) (Cert.Spec.lin (F := Ideal) (Cert.Spec.layer (F := Ideal) (m ((c : Thread nD τ).loc main_arg1)) (m ((c : Thread nD τ).loc main_arg2)) (Cert.Spec.lin0 (F := Ideal) (m ((c : Thread nD τ).loc main_arg0)) (m ((c : Thread nD τ).loc main_arg4)) (m ((c : Thread nD τ).loc main_arg5))) (Cert.Spec.wmat0 (F := Ideal) (m ((c : Thread nD τ).loc main_arg6))) (Cert.Spec.cbias0 (F := Ideal) (m ((c : Thread nD τ).loc main_arg7)))) (Cert.Spec.wmat1 (F := Ideal) (m ((c : Thread nD τ).loc main_arg6))))) := by
  dsimp only [W13, hostOps4]; after_results_simp; rw [W12_v29, W12_v1, W12_v3, W12_v54]; rfl
/-- Layer 1's bias row. -/
theorem W13_v69 : W13 m ρ c (Proc.devRef .tc main_v69) = (Cert.Spec.cbias1 (F := Ideal) (m ((c : Thread nD τ).loc main_arg7))) := by
  dsimp only [W13, hostOps4]; after_results_simp; rw [W12_arg7]; rfl
theorem W13_v50 : W13 m ρ c (Proc.devRef .tc main_v50) = (Cert.Spec.layer (F := Ideal) (m ((c : Thread nD τ).loc main_arg1)) (m ((c : Thread nD τ).loc main_arg2)) (Cert.Spec.lin0 (F := Ideal) (m ((c : Thread nD τ).loc main_arg0)) (m ((c : Thread nD τ).loc main_arg4)) (m ((c : Thread nD τ).loc main_arg5))) (Cert.Spec.wmat0 (F := Ideal) (m ((c : Thread nD τ).loc main_arg6))) (Cert.Spec.cbias0 (F := Ideal) (m ((c : Thread nD τ).loc main_arg7)))) :=
  (by dsimp only [W13, hostOps4]; after_results_simp : W13 m ρ c (Proc.devRef .tc main_v50) = W12 m ρ c (Proc.devRef .tc main_v50)).trans (W12_v50 m ρ c)

/-! ## Region 4 -/

/-- THE RESULT: the kernel program's result array holds the network's output of the arguments. -/
theorem W14_v70 : W14 m ρ c (Proc.devRef .tc main_v70) = (Cert.Spec.out (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  (W14_arr m ρ c 3).trans ((Cert.Regions.region4 (V13 m ρ) c).trans (by dsimp only [V13]; rw [W13_v50, W13_v67, W13_v69]; rfl))

end Cert.Walk

end
-- ==== Proof.RefSide.lean ====
/-
  The plain program's result is the network `Spec.out` of its arguments: its run's result term is that
  composition of stages as it stands.
-/
import proofs.«153343_j45449343926354_1_alg».proof.Proof.Gen.ReferenceIdeal.Run
import proofs.«153343_j45449343926354_1_alg».proof.Proof.Spec

noncomputable section

namespace Cert.RefSide

open Idealize.ShloMosaic Idealize.ShloMosaic.TcCoe Idealize.SL.Sem Cert.ReferenceIdeal Cert.ReferenceIdeal.Gen

variable {F : FTy → Type} [FloatOps F]

set_option maxRecDepth 8192 in
/-- The result term of the plain program's run, stage by stage, is `Spec.out` of the seven arrays it reads. -/
theorem result_eq (m : (ℓ : Loc nD τ sig) → Buf (Elt F) ℓ) (c : Dev nD) :
    Cert.ReferenceIdeal.Value.res_main_v80 m c
      = Cert.Spec.out (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg5)) (m ((c.tc : Thread nD τ).loc main_arg6))
          (m ((c.tc : Thread nD τ).loc main_arg7)) := by
  unfold Cert.ReferenceIdeal.Value.res_main_v80
  rfl

end Cert.RefSide

end
-- ==== Proof.lean ====
/-
  The certificate: a graph network of two convolution layers, the kernel program against the plain program.

  Both programs compute, on the host and with the same operations, the edge coefficients `ν e = δ (s e) · w e · δ (d e)`
  of the symmetric normalisation, gather rows of a feature matrix along the edges, scale them by `ν` and add them into
  the destination rows. What the kernel program does differently is the dense part: the first layer
  `max (x · W + b, 0)`, each layer's product `o · Wᵢ` and each layer's close `o + max (a + bᵢ, 0)` run as
  kernels over ten blocks of 5000 rows, the products from operands narrowed to a shorter float format into a zero
  accumulator. Over the extended reals the narrowing is the identity and the accumulator adds nothing, and each of
  these stages computes a row of its result from the same row of its row-blocked operands, so block by block the kernels
  leave exactly the plain program's arrays (Blocks, Region0 … Region4); between the regions the host operations are the
  plain program's own (WalkA, WalkB, WalkC). So both results are the one function `Spec.out` of the arguments, with no
  algebra between them and no use of the inputs' finiteness.

  The three frames are the generated ones (the plain program's is its generated run with the result dropped); the
  idealization rewrote nothing, so there is nothing to preserve.
-/
import proofs.«153343_j45449343926354_1_alg».proof.Defs
import proofs.«153343_j45449343926354_1_alg».proof.Proof.Gen.Kernel
import proofs.«153343_j45449343926354_1_alg».proof.Proof.Gen.Kernel.Frame
import proofs.«153343_j45449343926354_1_alg».proof.Proof.Gen.KernelIdeal
import proofs.«153343_j45449343926354_1_alg».proof.Proof.Gen.KernelIdeal.Frame
import proofs.«153343_j45449343926354_1_alg».proof.Proof.Gen.ReferenceIdeal
import proofs.«153343_j45449343926354_1_alg».proof.Proof.Gen.Pre_finite_inputs
import proofs.«153343_j45449343926354_1_alg».proof.Proof.KernelRun
import proofs.«153343_j45449343926354_1_alg».proof.Proof.WalkC
import proofs.«153343_j45449343926354_1_alg».proof.Proof.RefSide

noncomputable section

namespace Cert.Proof

open Idealize.ShloMosaic Idealize.ShloMosaic.TcCoe Idealize.SL.Sem

/-- Run from memories that agree on the arguments, both programs end with the network's output `Spec.out` of the
    arguments in their result arrays: the kernel program by its regions and host stretches read one after the other,
    the plain program by its run's result term. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Walk.W14_v70 m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    rw [Cert.RefSide.result_eq, (hagree c).1, (hagree c).2.1, (hagree c).2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
